-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 71
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S128x128, .bf16⟩
  | .hbm, ⟨31, _⟩ => ⟨S128x64, .bf16⟩
  | .hbm, ⟨32, _⟩ => ⟨S100000x1, .f32⟩
  | .hbm, ⟨33, _⟩ => ⟨S100000x128, .bf16⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .bf16⟩
  | .hbm, ⟨43, _⟩ => ⟨S1700000x128, .f32⟩
  | .hbm, ⟨44, _⟩ => ⟨S_, .f32⟩
  | .hbm, ⟨45, _⟩ => ⟨S100000x128, .f32⟩
  | .hbm, ⟨46, _⟩ => ⟨S1700000x1, .i32⟩
  | .hbm, ⟨47, _⟩ => ⟨S100000x128, .f32⟩
  | .hbm, ⟨48, _⟩ => ⟨S100000x1, .f32⟩
  | .hbm, ⟨49, _⟩ => ⟨S1x128, .f32⟩
  | .hbm, ⟨50, _⟩ => ⟨S100000x64, .bf16⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .bf16⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .bf16⟩
  | .local _ .vmem, ⟨13, _⟩ => ⟨S5000x64, .bf16⟩
  | .local _ .vmem, ⟨14, _⟩ => ⟨S5000x64, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRegion0.lean ====
/-
  The first matrix product, from blocks to the whole array.

  The first pallas_call walks the 100000 rows in 20 blocks of 5000. At each block it scales row `r` of the
  features by the row's normalisation `d r` (a column of width one, broadcast along the row) and multiplies by
  the whole 128 × 128 weight matrix: the block's entry `(r, q)` is `∑ k, (x r k * d r) * w k q`. The blocks tile the
  rows, so after the region the output array holds that sum at every `(r, q)`. Changes of float format are the
  identity on the extended reals.
-/
import proofs.«422813_j14388140441811_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The three arrays region 0 reads, as it finds them: the features, the normalisation as a column, the weights. -/
abbrev xarr0 (c : Dev nD) : S100000x128.Idx → EReal := V c main_arg0
abbrev dcol0 (c : Dev nD) : S100000x1.Idx → EReal := V c main_v19
abbrev warr0 (c : Dev nD) : S128x128.Idx → EReal := V c main_v17

/-- The array region 0 leaves in its output window. -/
abbrev out0arr (c : Dev nD) : S100000x128.Idx → EReal := (dat0 (F := Ideal) V c).arrAt 3 cfg0.N

/-! ## The body's arithmetic at an entry of the block -/

/-- The zero offsets of every load and store of the body. -/
private theorem zeroOff : (![0, 0] : Fin 2 → Nat) = fun _ => 0 :=
  funext fun a => by match a with | ⟨0, _⟩ => rfl | ⟨1, _⟩ => rfl

/-- A column of width one broadcast along the rows: entry `(p, q)` reads the column at row `p`. -/
private theorem column_broadcast_apply (x : S5000x1.Idx → EReal) (h : S5000x1.Broadcasts S5000x128) (p : Fin 5000) (q : Fin 128) :
    broadcastTo S5000x128 x h (ix2 p q) = x (ix2 p (0 : Fin 1)) := by
  refine broadcastTo_apply x h (ix2 p q) (ix2 p (0 : Fin 1)) fun a => ?_
  match a with
  | ⟨0, _⟩ => show p.val = if (5000 : Nat) = 1 then 0 else p.val; rw [if_neg (by decide)]
  | ⟨1, _⟩ => show (0 : Nat) = if (1 : Nat) = 1 then 0 else q.val; rw [if_pos rfl]

/-- The left operand's index at output entry `i` and contraction index `q`: row of `i`, column `q`. -/
private theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index there: row `q`, column of `i`. -/
private theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero accumulator, at entry `(p, q)`: the sum over the shared axis. -/
private theorem product_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's stored value at entry `(p, q)` of the block: row `p` of the features scaled by the row's normalisation,
    times column `q` of the weights. -/
private theorem body_apply (x0 : Vec Ideal S5000x128 .f32) (x1 : Vec Ideal S5000x1 .f32) (x2 : Vec Ideal S128x128 .bf16) (p : Fin 5000) (q : Fin 128) :
    k0_pay1 (F := Ideal) x0 x1 x2 (ix2 p q) = ∑ k : Fin 128, (x0 (ix2 p k) * x1 (ix2 p (0 : Fin 1))) * x2 (ix2 k q) := by
  unfold k0_pay1
  rw [truncf_apply, product_apply]
  refine Finset.sum_congr rfl fun k _ => ?_
  rw [truncf_apply, mulf_apply, column_broadcast_apply, shapeCast_self, shapeCast_self]

/-! ## From the blocks to the array -/

/-- The scaled features times the weights, as one function of the three arrays: entry `(r, q)` of the whole product. -/
private def scaledProduct0 (c : Dev nD) : S100000x128.Idx → EReal := fun i =>
  ∑ k : Fin 128, (xarr0 V c (ix2 (i 0 : Fin 100000) k) * dcol0 V c (ix2 (i 0 : Fin 100000) (0 : Fin 1))) * warr0 V c (ix2 k (i 1 : Fin 128))

/-- Where each window's block sits at grid point `t`: the features', the column's and the output's blocks are row block
    `t`; the weights' block is the whole matrix. -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the features' block at point `t` is entry `(5000 t + p, k)` of the features. -/
private theorem features_block_apply (c : Dev nD) (t : Fin cfg0.N) (p : Fin 5000) (k : Fin 128) (r : Fin 100000)
    (hr : r.val = t.val * 5000 + p.val) :
    (iblk0 V c 0 t : Vec Ideal S5000x128 .f32) (ix2 p k) = xarr0 V c (ix2 r k) := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Entry `(p, 0)` of the column's block at point `t` is entry `(5000 t + p, 0)` of the column. -/
private theorem column_block_apply (c : Dev nD) (t : Fin cfg0.N) (p : Fin 5000) (r : Fin 100000)
    (hr : r.val = t.val * 5000 + p.val) :
    (iblk0 V c 1 t : Vec Ideal S5000x1 .f32) (ix2 p (0 : Fin 1)) = dcol0 V c (ix2 r (0 : Fin 1)) := by
  obtain ⟨-, -, e0, e1, -⟩ := block_index t
  unfold iblk0
  rw [View.read_apply]
  show V c main_v19 _ = V c main_v19 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 1 + 1 * (0 : Fin 1).val = (0 : Fin 1).val; rw [e1]; rfl

/-- The weights' block at every point is the whole matrix. -/
private theorem weights_block_apply (c : Dev nD) (t : Fin cfg0.N) (k q : Fin 128) :
    (iblk0 V c 2 t : Vec Ideal S128x128 .bf16) (ix2 k q) = warr0 V c (ix2 k q) := by
  obtain ⟨-, -, -, -, e0, e1, -⟩ := block_index t
  unfold iblk0
  rw [View.read_apply]
  show V c main_v17 _ = V c main_v17 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Entry `(p, q)` of the output's block at point `t` sits at entry `(5000 t + p, q)` of the output array. -/
private theorem output_block_emb (t : Fin cfg0.N) (p : Fin 5000) (q : Fin 128) (r : Fin 100000)
    (hr : r.val = t.val * 5000 + p.val) :
    ((cfg0.win 3).blk t).view.emb (ix2 p q) = (ix2 r q : S100000x128.Idx) := by
  obtain ⟨-, -, -, -, -, -, e0, e1⟩ := block_index t
  funext a
  apply Fin.ext
  match a with
  | ⟨0, _⟩ => show win0_3.index t (0 : Fin 2) * 5000 + 1 * p.val = r.val; rw [e0, hr]; omega
  | ⟨1, _⟩ => show win0_3.index t (1 : Fin 2) * 128 + 1 * q.val = q.val; rw [e1]; omega

/-- What point `t` writes back is block `t` of the whole product. -/
private theorem written_block (c : Dev nD) (t : Fin cfg0.N) :
    (dat0 (F := Ideal) V c).flushed 3 t = ((cfg0.win 3).blk t).view.read (Elt Ideal) (scaledProduct0 V c) := by
  show (cfg0.win 3).cut (grid0.coords t) ((dat0 (F := Ideal) V c).after 3 t) = _
  rw [after0_3]
  unfold out0_3
  rw [View.canon_unit_zero zeroOff]
  simp only [View.ld_unit_zero (S := S5000x128) zeroOff, View.ld_unit_zero (S := S5000x1) zeroOff, View.ld_unit_zero (S := S128x128) zeroOff]
  funext j
  obtain ⟨p, q, rfl⟩ : ∃ (p : Fin 5000) (q : Fin 128), j = ix2 p q := ⟨j 0, j 1, eq_ix2 j⟩
  have ht : t.val < 20 := lt_of_lt_of_eq t.isLt (show cfg0.N = 20 from N_0)
  have hp : p.val < 5000 := p.isLt
  obtain ⟨r, hr⟩ : ∃ r : Fin 100000, r.val = t.val * 5000 + p.val := ⟨⟨t.val * 5000 + p.val, by omega⟩, rfl⟩
  show k0_pay1 (F := Ideal) (iblk0 V c 0 t) (iblk0 V c 1 t) (iblk0 V c 2 t) (ix2 p q) = scaledProduct0 V c (((cfg0.win 3).blk t).view.emb (ix2 p q))
  refine (body_apply (iblk0 V c 0 t) (iblk0 V c 1 t) (iblk0 V c 2 t) p q).trans ?_
  rw [output_block_emb t p q r hr]
  show _ = ∑ k : Fin 128, (xarr0 V c (ix2 r k) * dcol0 V c (ix2 r (0 : Fin 1))) * warr0 V c (ix2 k q)
  refine Finset.sum_congr rfl fun k _ => ?_
  rw [features_block_apply V c t p k r hr, column_block_apply V c t p r hr, weights_block_apply V c t k q]

/-- An entry of the output array is in point `t`'s block iff each coordinate is in the block's range on its axis. -/
private theorem mem_output_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20).slice (win0_3.rect t)).set ↔ _
  rw [View.set_slice_whole, Rect.mem_set_unit]
  exact Iff.rfl

/-- The twenty row blocks tile the rows: row `r` is in the block of point `r / 5000`. -/
private theorem rows_covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (show (i 0).val / 5000 < 20 by omega) (show cfg0.N = 20 from N_0).symm⟩, rfl⟩
  refine ⟨t, flush0_3 t, ?_⟩
  rw [mem_output_block]
  obtain ⟨-, -, -, -, -, -, e0, e1⟩ := block_index t
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- So the output array ends holding the whole product. -/
private theorem output_array (c : Dev nD) : out0arr V c = scaledProduct0 V c :=
  (dat0 (F := Ideal) V c).arrAt_eq_of_cover 3 (scaledProduct0 V c) (fun t _ => written_block V c t) rows_covered

/-- After region 0 its output array holds, at row `r` and column `q`, the scaled row times the weight column. -/
theorem final0 (c : Dev nD) (r : Fin 100000) (q : Fin 128) :
    out0arr V c (ix2 r q) = ∑ k : Fin 128, (xarr0 V c (ix2 r k) * dcol0 V c (ix2 r 0)) * warr0 V c (ix2 k q) := by
  rw [output_array V c]
  rfl

end Cert.KernelIdeal.Hand

end
-- ==== Proof.KRegion1.lean ====
/-
  The second matrix product, from blocks to the whole array.

  The second pallas_call walks the 100000 rows in 20 blocks of 5000. At row `r` it finishes the first layer —
  the aggregate scaled by the row's normalisation `d r`, plus the bias row, cut off below at zero — scales the
  result by `d r` again and multiplies by the whole 128 × 64 weight matrix: the block's entry `(r, q)` is
  `∑ k, (d r * max (d r * a r k + b k) 0) * w k q`. The blocks tile the rows, so after the region the output
  array holds that sum at every `(r, q)`. Changes of float format are the identity on the extended reals.
-/
import proofs.«422813_j14388140441811_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-! ## One block's entry as a sum -/

/-- The zero offset vector of a whole-buffer access. -/
private theorem zeroOff : (![0, 0] : Fin 2 → Nat) = fun _ => 0 := funext fun a => by fin_cases a <;> rfl

/-- A column of 5000 entries spread over 128 lanes reads, at `(p, k)`, the column's entry at row `p`. -/
private theorem spreadCol (v : S5000x1.Idx → EReal) (h : S5000x1.Broadcasts S5000x128) (p : Fin 5000) (k : Fin 128) :
    broadcastTo S5000x128 v h (ix2 p k) = v (ix2 p 0) := by
  refine broadcastTo_apply v h (ix2 p k) (ix2 p (0 : Fin 1)) fun ax => ?_
  match ax with
  | ⟨0, _⟩ =>
    show p.val = if (5000 : Nat) = 1 then 0 else p.val
    rw [if_neg (by decide)]
  | ⟨1, _⟩ => rfl

/-- The left operand's row coordinate is the output's. -/
private theorem lhsRow (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contraction index. -/
private theorem lhsCol (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the contraction index. -/
private theorem rhsRow (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the output's. -/
private theorem rhsCol (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's matrix product into the zero accumulator, at `(p, q)`: row `p` of the left operand against column
    `q` of the right one. -/
private theorem prodAt (a : FVec Ideal S5000x128 .bf16) (w : FVec Ideal S128x64 .bf16) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  show FloatOps.matmul dot_S5000x128_S128x64_S5000x64_1_0_0_1_n_n none a w (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhsRow _ _
    | ⟨1, _⟩ => exact (lhsCol _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhsRow _ _).trans hk
    | ⟨1, _⟩ => exact rhsCol _ _)
  rw [el, er]

/-- What the body stores at `(p, q)` of its block, from the four blocks it loaded. -/
private theorem bodyAt (x0 : Vec Ideal S5000x128 .f32) (x1 : Vec Ideal S5000x1 .f32) (x2 : Vec Ideal S1x128 .f32)
    (x3 : Vec Ideal S128x64 .bf16) (p : Fin 5000) (q : Fin 64) :
    k1_pay1 x0 x1 x2 x3 (ix2 p q)
      = ∑ k : Fin 128, (x1 (ix2 p 0) * max (x1 (ix2 p 0) * x0 (ix2 p k) + x2 (ix2 0 k)) 0) * x3 (ix2 k q) := by
  unfold k1_pay1
  simp only [shapeCast_self]
  rw [truncf_apply, prodAt]
  refine Finset.sum_congr rfl fun k _ => ?_
  rw [truncf_apply, mulf_apply, maximumf_apply, addf_apply, mulf_apply, spreadCol, broadcastTo_1b_ab_apply, broadcast_apply]
  show _ * max _ (Ideal.ofBits .f32 0x00000000#32) * _ = _
  rw [Ideal.ofBits_zero_f32]

variable (V : (c : Dev nD) → (b : Ref sig .tc) → Buf (Elt Ideal) ((c : Thread nD τ).loc b))

/-- The four arrays region 1 reads, as it finds them: the first aggregate, the normalisation as a column, the
    first bias as a row, the second weights. -/
abbrev agg1 (c : Dev nD) : S100000x128.Idx → EReal := V c main_v31
abbrev dcol1 (c : Dev nD) : S100000x1.Idx → EReal := V c main_v32
abbrev brow1 (c : Dev nD) : S1x128.Idx → EReal := V c main_v33
abbrev warr1 (c : Dev nD) : S128x64.Idx → EReal := V c main_v18

/-- The array region 1 leaves in its output window. -/
abbrev out1arr (c : Dev nD) : S100000x64.Idx → EReal := (dat1 (F := Ideal) V c).arrAt 4 cfg1.N

/-! ## The whole array as one function of the four arrays -/

/-- The finished, rescaled first layer's row `r` against column `q` of the weights. -/
private def layerAt (a : S100000x128.Idx → EReal) (d : S100000x1.Idx → EReal) (b : S1x128.Idx → EReal) (w : S128x64.Idx → EReal)
    (r : Fin 100000) (q : Fin 64) : EReal :=
  ∑ k : Fin 128, (d (ix2 r 0) * max (d (ix2 r 0) * a (ix2 r k) + b (ix2 0 k)) 0) * w (ix2 k q)

/-- The same as an array of 100000 × 64 entries. -/
private def layer (a : S100000x128.Idx → EReal) (d : S100000x1.Idx → EReal) (b : S1x128.Idx → EReal) (w : S128x64.Idx → EReal) :
    S100000x64.Idx → EReal :=
  fun i => layerAt a d b w (i 0) (i 1)

/-! ## Where each window's block lies in its array -/

/-- The aggregate's, the normalisation's and the output's blocks move down the rows with the grid point; the bias row
    and the weights stay where they are. -/
private theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t` holds rows `5000 t … 5000 t + 4999`. -/
private theorem aggBlock (c : Dev nD) (t : Fin cfg1.N) (p : Fin 5000) (k : Fin 128) (r : Fin 100000)
    (hr : r.val = t.val * 5000 + p.val) :
    (iblk1 V c 0 t : Vec Ideal S5000x128 .f32) (ix2 p k) = V c main_v31 (ix2 r k) := by
  obtain ⟨e0, e1, -⟩ := blockIdx t
  unfold iblk1
  rw [View.read_apply]
  show V c main_v31 _ = V c main_v31 _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The normalisation's block at point `t` holds the same rows of the column. -/
private theorem colBlock (c : Dev nD) (t : Fin cfg1.N) (p : Fin 5000) (r : Fin 100000)
    (hr : r.val = t.val * 5000 + p.val) :
    (iblk1 V c 1 t : Vec Ideal S5000x1 .f32) (ix2 p 0) = V c main_v32 (ix2 r 0) := by
  obtain ⟨-, -, e0, e1, -⟩ := blockIdx t
  unfold iblk1
  rw [View.read_apply]
  show V c main_v32 _ = V c main_v32 _
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias row's block is the whole row at every point. -/
private theorem rowBlock (c : Dev nD) (t : Fin cfg1.N) (k : Fin 128) :
    (iblk1 V c 2 t : Vec Ideal S1x128 .f32) (ix2 0 k) = V c main_v33 (ix2 0 k) := by
  obtain ⟨-, -, -, -, e0, e1, -⟩ := blockIdx t
  unfold iblk1
  rw [View.read_apply]
  show V c main_v33 _ = V c main_v33 _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The weights' block is the whole matrix at every point. -/
private theorem weightBlock (c : Dev nD) (t : Fin cfg1.N) (k : Fin 128) (q : Fin 64) :
    (iblk1 V c 3 t : Vec Ideal S128x64 .bf16) (ix2 k q) = V c main_v18 (ix2 k q) := by
  obtain ⟨-, -, -, -, -, -, e0, e1, -⟩ := blockIdx t
  unfold iblk1
  rw [View.read_apply]
  show V c main_v18 _ = V c main_v18 _
  refine congrArg _ (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- What the body stores at `(p, q)` of point `t`'s block is the whole-array function at row `5000 t + p`. -/
private theorem blockEntry (c : Dev nD) (t : Fin cfg1.N) (p : Fin 5000) (q : Fin 64) (r : Fin 100000) (q' : Fin 64)
    (hr : r.val = t.val * 5000 + p.val) (hq : q'.val = q.val) :
    k1_pay1 (iblk1 V c 0 t) (iblk1 V c 1 t) (iblk1 V c 2 t) (iblk1 V c 3 t) (ix2 p q)
      = layerAt (agg1 V c) (dcol1 V c) (brow1 V c) (warr1 V c) r q' := by
  obtain rfl : q' = q := Fin.ext hq
  refine (bodyAt _ _ _ _ p q').trans ?_
  unfold layerAt
  refine Finset.sum_congr rfl fun k _ => ?_
  rw [aggBlock V c t p k r hr, colBlock V c t p r hr, rowBlock V c t k, weightBlock V c t k q']

/-! ## From the blocks to the array -/

/-- What point `t` writes back is block `t` of the whole-array function. -/
private theorem writtenBlock (c : Dev nD) (t : Fin cfg1.N) :
    (dat1 (F := Ideal) V c).flushed 4 t
      = ((cfg1.win 4).blk t).view.read (Elt Ideal) (layer (agg1 V c) (dcol1 V c) (brow1 V c) (warr1 V c)) := by
  show (cfg1.win 4).cut (grid1.coords t) ((dat1 (F := Ideal) V c).after 4 t) = _
  rw [after1_4]
  unfold out1_4
  rw [View.canon_unit_zero zeroOff]
  simp only [View.ld_unit_zero (S := S5000x128) zeroOff, View.ld_unit_zero (S := S5000x1) zeroOff,
    View.ld_unit_zero (S := S1x128) zeroOff, View.ld_unit_zero (S := S128x64) zeroOff]
  obtain ⟨-, -, -, -, -, -, -, -, e0, e1⟩ := blockIdx t
  funext j
  obtain ⟨p, q, rfl⟩ : ∃ (p : Fin 5000) (q : Fin 64), j = ix2 p q := ⟨j 0, j 1, eq_ix2 j⟩
  rw [View.read_apply]
  refine blockEntry V c t p q _ _ ?_ ?_
  · show win1_4.index t (0 : Fin 2) * 5000 + 1 * p.val = t.val * 5000 + p.val; omega
  · show win1_4.index t (1 : Fin 2) * 64 + 1 * q.val = q.val; omega

/-- An index of the output array is in point `t`'s block iff each coordinate is in the block's range on its axis. -/
private theorem inBlock (t : Fin cfg1.N) (i : S100000x64.Idx) :
    i ∈ ((cfg1.win 4).blk t).view.set
      ↔ ∀ a : Fin 2, win1_4.index t a * S5000x64.size a ≤ (i a).val ∧ (i a).val < win1_4.index t a * S5000x64.size a + S5000x64.size a := by
  show i ∈ ((View.whole main_v34).slice (win1_4.rect t)).set ↔ _
  rw [View.set_slice_whole, Rect.mem_set_unit]
  exact Iff.rfl

/-- Row `r` lies in the block of point `r / 5000`: the twenty blocks tile the rows. -/
private theorem rowsTiled (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by omega⟩
  have ht : t.val = (i 0).val / 5000 := rfl
  obtain ⟨-, -, -, -, -, -, -, -, e0, e1⟩ := blockIdx t
  refine ⟨t, flush1_4 t, ?_⟩
  rw [inBlock]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- So the output array ends holding the whole-array function. -/
private theorem wholeArray (c : Dev nD) :
    (dat1 (F := Ideal) V c).arrAt 4 cfg1.N = layer (agg1 V c) (dcol1 V c) (brow1 V c) (warr1 V c) :=
  (dat1 (F := Ideal) V c).arrAt_eq_of_cover 4 (layer (agg1 V c) (dcol1 V c) (brow1 V c) (warr1 V c))
    (fun t _ => writtenBlock V c t) rowsTiled

/-- After region 1 its output array holds, at row `r` and column `q`, the finished and rescaled first layer's
    row times the weight column. -/
theorem final1 (c : Dev nD) (r : Fin 100000) (q : Fin 64) :
    out1arr V c (ix2 r q)
      = ∑ k : Fin 128, (dcol1 V c (ix2 r 0) * max (dcol1 V c (ix2 r 0) * agg1 V c (ix2 r k) + brow1 V c (ix2 0 k)) 0)
          * warr1 V c (ix2 k q) := by
  show (dat1 (F := Ideal) V c).arrAt 4 cfg1.N (ix2 r q) = _
  rw [wholeArray]
  rfl

end Cert.KernelIdeal.Hand

end
-- ==== Proof.KHost0.lean ====
/-
  The idealized kernel's host program, up to the first pallas_call.

  Before the first region the host builds, from the edge list alone, the source and target node of every edge (the
  listed edges followed by one self loop per node), each node's degree (a scatter-add of ones over the targets) and
  the normalisation `d = if degree > 0 then 1 / sqrt (max degree 1) else 0`; it keeps `d` also as a column of width
  one, and the two weight matrices in the narrower float format. These are the same host operations, on the same
  edge list, as the reference performs: each buffer is stated here as the reference's own stage function of the
  edge-list argument. The arguments themselves are never written.
-/
import proofs.«422813_j14388140441811_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«422813_j14388140441811_3_alg».proof.Proof.RefRead

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- The six arguments as launched. -/
abbrev arg0 (c : Dev nD) : (⟨S100000x128, .f32⟩ : BufTy).Contents (Elt F) := m ((c : Thread nD τ).loc main_arg0)
abbrev arg1 (c : Dev nD) : (⟨S2x1600000, .i32⟩ : BufTy).Contents (Elt F) := m ((c : Thread nD τ).loc main_arg1)
abbrev arg2 (c : Dev nD) : (⟨S128x128, .f32⟩ : BufTy).Contents (Elt F) := m ((c : Thread nD τ).loc main_arg2)
abbrev arg3 (c : Dev nD) : (⟨S128, .f32⟩ : BufTy).Contents (Elt F) := m ((c : Thread nD τ).loc main_arg3)
abbrev arg4 (c : Dev nD) : (⟨S128x64, .f32⟩ : BufTy).Contents (Elt F) := m ((c : Thread nD τ).loc main_arg4)
abbrev arg5 (c : Dev nD) : (⟨S64, .f32⟩ : BufTy).Contents (Elt F) := m ((c : Thread nD τ).loc main_arg5)

/-! ## The three stretches of host operations, each from any contents it may find -/

/-- The first stretch: every node's degree, from the edge list. -/
private theorem first_v10 (X : Valuation τ sig (Elt F)) :
    StableHlo.after hostOps0 X (Proc.devRef .tc main_v10)
      = Cert.ReferenceIdeal.ReadP.val_main_v10 (F := F) (X (Proc.devRef .tc main_arg1)) := by
  after_results
  unfold Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_v5 Cert.ReferenceIdeal.ReadP.val_main_v4 Cert.ReferenceIdeal.ReadP.val_main_v0 Cert.ReferenceIdeal.ReadP.val_main_cst_0 Cert.ReferenceIdeal.ReadP.val_main_cst
  rfl

/-- The first stretch: which nodes have a positive degree. -/
private theorem first_v12 (X : Valuation τ sig (Elt F)) :
    StableHlo.after hostOps0 X (Proc.devRef .tc main_v12)
      = Cert.ReferenceIdeal.ReadP.val_main_v12 (F := F) (X (Proc.devRef .tc main_arg1)) := by
  after_results
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_v5 Cert.ReferenceIdeal.ReadP.val_main_v4 Cert.ReferenceIdeal.ReadP.val_main_v0 Cert.ReferenceIdeal.ReadP.val_main_cst_0 Cert.ReferenceIdeal.ReadP.val_main_cst
  rfl

/-- The first stretch: one over the square root of the degree, the degree taken at least one. -/
private theorem first_v15 (X : Valuation τ sig (Elt F)) :
    StableHlo.after hostOps0 X (Proc.devRef .tc main_v15)
      = Cert.ReferenceIdeal.ReadP.val_main_v15 (F := F) (X (Proc.devRef .tc main_arg1)) := by
  after_results
  unfold Cert.ReferenceIdeal.ReadP.val_main_v15 Cert.ReferenceIdeal.ReadP.val_main_v14 Cert.ReferenceIdeal.ReadP.val_main_v13 Cert.ReferenceIdeal.ReadP.val_main_cst_2 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_v5 Cert.ReferenceIdeal.ReadP.val_main_v4 Cert.ReferenceIdeal.ReadP.val_main_v0 Cert.ReferenceIdeal.ReadP.val_main_cst_0 Cert.ReferenceIdeal.ReadP.val_main_cst
  rfl

/-- The first stretch: the zero the normalisation takes where the degree is not positive. -/
private theorem first_cst_3 (X : Valuation τ sig (Elt F)) :
    StableHlo.after hostOps0 X (Proc.devRef .tc main_cst_3) = Cert.ReferenceIdeal.ReadP.val_main_cst_3 (F := F) := by
  after_results
  unfold Cert.ReferenceIdeal.ReadP.val_main_cst_3
  rfl

/-- The second stretch chooses, node by node, between the inverse square root and zero. -/
private theorem second_v16 (Y : Valuation τ sig (Elt F)) :
    (StableHlo.after hostOps0_1 Y (Proc.devRef .tc main_v16) : (⟨S100000, .f32⟩ : BufTy).Contents (Elt F))
      = select (Y (Proc.devRef .tc main_v12) : (⟨S100000, .i1⟩ : BufTy).Contents (Elt F))
          (Y (Proc.devRef .tc main_v15) : (⟨S100000, .f32⟩ : BufTy).Contents (Elt F))
          (broadcastInDim S100000 ![] bcast_S_S100000 (id (Y (Proc.devRef .tc main_cst_3) : (⟨S_, .f32⟩ : BufTy).Contents (Elt F)))) := by
  after_results
  rfl

/-- The third stretch leaves the normalisation as it was. -/
private theorem third_v16 (Z : Valuation τ sig (Elt F)) :
    StableHlo.after hostOps0_2 Z (Proc.devRef .tc main_v16) = Z (Proc.devRef .tc main_v16) := by
  after_results

/-- The third stretch's reshape: row `r` of the column is entry `r` of the vector it finds. -/
private theorem third_v19 (Z : Valuation τ sig (Elt F)) (r : Fin 100000) :
    (StableHlo.after hostOps0_2 Z (Proc.devRef .tc main_v19) : (⟨S100000x1, .f32⟩ : BufTy).Contents (Elt F)) (ix2 r 0)
      = (Z (Proc.devRef .tc main_v16) : (⟨S100000, .f32⟩ : BufTy).Contents (Elt F)) (ix1 r) := by
  after_results
  show shapeCast S100000x1 (Z (Proc.devRef .tc main_v16) : S100000.Idx → Elt F .f32) shapeCasts_S100000_S100000x1 (ix2 r 0) = _
  refine shapeCast_apply _ _ (ix2 r 0) (ix1 r) ?_
  rw [Shape.rowMajor_val_one, Shape.rowMajor_val_two]
  show r.val = r.val * 1 + 0
  omega

/-- At the first region's entry the normalisation is the reference's. -/
theorem W3_v16 (c : Dev nD) :
    W3 m ρ c (Proc.devRef .tc main_v16) = Cert.ReferenceIdeal.ReadP.val_main_v16 (F := F) (arg1 m c) := by
  show StableHlo.after hostOps0_2 (StableHlo.after hostOps0_1 (StableHlo.after hostOps0 (W0 m ρ c))) (Proc.devRef .tc main_v16) = _
  rw [third_v16, second_v16, first_v12, first_v15, first_cst_3]
  unfold Cert.ReferenceIdeal.ReadP.val_main_v16 Cert.ReferenceIdeal.ReadP.val_main_call0_v1 Cert.ReferenceIdeal.ReadP.val_main_call0_v0
  rfl

/-- The source nodes (listed edges, then the self loops). -/
theorem W3_v3 (c : Dev nD) :
    W3 m ρ c (Proc.devRef .tc main_v3) = Cert.ReferenceIdeal.ReadP.val_main_v3 (F := F) (arg1 m c) := by
  show StableHlo.after hostOps0_2 (W2 m ρ c) (Proc.devRef .tc main_v3) = _
  after_results
  unfold Cert.ReferenceIdeal.ReadP.val_main_v3 Cert.ReferenceIdeal.ReadP.val_main_v2 Cert.ReferenceIdeal.ReadP.val_main_v1 Cert.ReferenceIdeal.ReadP.val_main_v0
  rfl

/-- The target nodes (listed edges, then the self loops). -/
theorem W3_v6 (c : Dev nD) :
    W3 m ρ c (Proc.devRef .tc main_v6) = Cert.ReferenceIdeal.ReadP.val_main_v6 (F := F) (arg1 m c) := by
  show StableHlo.after hostOps0_2 (W2 m ρ c) (Proc.devRef .tc main_v6) = _
  after_results
  unfold Cert.ReferenceIdeal.ReadP.val_main_v6 Cert.ReferenceIdeal.ReadP.val_main_v5 Cert.ReferenceIdeal.ReadP.val_main_v4 Cert.ReferenceIdeal.ReadP.val_main_v0
  rfl

/-- The first weight matrix in the narrower format. -/
theorem W3_v17 (c : Dev nD) :
    W3 m ρ c (Proc.devRef .tc main_v17) = truncf .bf16 (arg2 m c) bitsLt_bf16_f32 := by
  show StableHlo.after hostOps0_2 (W2 m ρ c) (Proc.devRef .tc main_v17) = _
  after_results

/-- The second weight matrix in the narrower format. -/
theorem W3_v18 (c : Dev nD) :
    W3 m ρ c (Proc.devRef .tc main_v18) = truncf .bf16 (arg4 m c) bitsLt_bf16_f32 := by
  show StableHlo.after hostOps0_2 (W2 m ρ c) (Proc.devRef .tc main_v18) = _
  after_results

/-- The normalisation as a column: row `r` of the column is entry `r` of the vector. -/
theorem W3_v19 (c : Dev nD) (r : Fin 100000) :
    (W3 m ρ c (Proc.devRef .tc main_v19) : (⟨S100000x1, .f32⟩ : BufTy).Contents (Elt F)) (ix2 r 0)
      = Cert.ReferenceIdeal.ReadP.val_main_v16 (F := F) (arg1 m c) (ix1 r) := by
  rw [← W3_v16 m ρ c]
  exact third_v19 (W2 m ρ c) r

/-- The arguments are as launched. -/
theorem W3_arg0 (c : Dev nD) : W3 m ρ c (Proc.devRef .tc main_arg0) = arg0 m c := by
  show StableHlo.after hostOps0_2 (W2 m ρ c) (Proc.devRef .tc main_arg0) = _
  after_results
theorem W3_arg3 (c : Dev nD) : W3 m ρ c (Proc.devRef .tc main_arg3) = arg3 m c := by
  show StableHlo.after hostOps0_2 (W2 m ρ c) (Proc.devRef .tc main_arg3) = _
  after_results
theorem W3_arg5 (c : Dev nD) : W3 m ρ c (Proc.devRef .tc main_arg5) = arg5 m c := by
  show StableHlo.after hostOps0_2 (W2 m ρ c) (Proc.devRef .tc main_arg5) = _
  after_results

end Cert.KernelIdeal.Hand

end
-- ==== Proof.KHost1.lean ====
/-
  The idealized kernel's host program, from the first pallas_call on.

  Between the two regions the host gathers the first product's rows by source node, adds them up by target node
  (the first aggregate), and reshapes the normalisation to a column and the first bias to a row. After the second
  region it gathers and aggregates the second product the same way, scales each row by the node's normalisation and
  adds the second bias. The source and target node of every edge, the normalisation and the zero arrays the sums
  start from are the reference's own stage functions of the edge-list argument.
-/
import proofs.«422813_j14388140441811_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«422813_j14388140441811_3_alg».proof.Proof.KHost0

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- The array the first region leaves in its output window. -/
abbrev z1arr (c : Dev nD) : (⟨S100000x128, .bf16⟩ : BufTy).Contents (Elt F) := (dat0 (V3 m ρ) c).arrAt 3 cfg0.N

/-- The array the second region leaves in its output window. -/
abbrev z2arr (c : Dev nD) : (⟨S100000x64, .bf16⟩ : BufTy).Contents (Elt F) := (dat1 (V5 m ρ) c).arrAt 4 cfg1.N

/-! ## The buffers the host operations read, walked back to the first region's entry -/

/-- The first region's output array, at the first region's exit. -/
private theorem W4_v20 (c : Dev nD) : W4 m ρ c (Proc.devRef .tc main_v20) = z1arr m ρ c := W4_arr m ρ c 3

/-- The source nodes, the target nodes and the normalisation are no array of the first region: they leave it as they
    entered it. -/
private theorem W4_v3 (c : Dev nD) :
    W4 m ρ c (Proc.devRef .tc main_v3) = Cert.ReferenceIdeal.ReadP.val_main_v3 (F := F) (arg1 m c) :=
  (W4_of_ne m ρ c main_v3 (by decide)).trans (W3_v3 m ρ c)
private theorem W4_v6 (c : Dev nD) :
    W4 m ρ c (Proc.devRef .tc main_v6) = Cert.ReferenceIdeal.ReadP.val_main_v6 (F := F) (arg1 m c) :=
  (W4_of_ne m ρ c main_v6 (by decide)).trans (W3_v6 m ρ c)
private theorem W4_v16 (c : Dev nD) :
    W4 m ρ c (Proc.devRef .tc main_v16) = Cert.ReferenceIdeal.ReadP.val_main_v16 (F := F) (arg1 m c) :=
  (W4_of_ne m ρ c main_v16 (by decide)).trans (W3_v16 m ρ c)
private theorem W4_v18 (c : Dev nD) : W4 m ρ c (Proc.devRef .tc main_v18) = truncf .bf16 (arg4 m c) bitsLt_bf16_f32 :=
  (W4_of_ne m ρ c main_v18 (by decide)).trans (W3_v18 m ρ c)
private theorem W4_arg3 (c : Dev nD) : W4 m ρ c (Proc.devRef .tc main_arg3) = arg3 m c :=
  (W4_of_ne m ρ c main_arg3 (by decide)).trans (W3_arg3 m ρ c)
private theorem W4_arg5 (c : Dev nD) : W4 m ρ c (Proc.devRef .tc main_arg5) = arg5 m c :=
  (W4_of_ne m ρ c main_arg5 (by decide)).trans (W3_arg5 m ρ c)

/-- The first aggregate, as the second region finds it: the first product's rows gathered by source node and added
    up by target node, from zero. -/
theorem V5_v31 (c : Dev nD) :
    V5 m ρ c main_v31
      = Host.scatterAdd Cert.ReferenceIdeal.scatter_S100000x128_S1700000x1_S1700000x128_1_0_0_1
          (Cert.ReferenceIdeal.ReadP.val_main_v43 (F := F)) (Cert.ReferenceIdeal.ReadP.val_main_v44 (F := F) (arg1 m c))
          (extf .f32 (Host.gather Cert.ReferenceIdeal.gather_S100000x128_S1700000x1_S1700000x128_1_0_n_n_0_1_1128
            (z1arr m ρ c) (Cert.ReferenceIdeal.ReadP.val_main_v38 (F := F) (arg1 m c))) bitsLt_bf16_f32) := by
  show StableHlo.after hostOps1 (W4 m ρ c) (Proc.devRef .tc main_v31) = _
  after_results
  rw [W4_v20, W4_v3, W4_v6]
  unfold Cert.ReferenceIdeal.ReadP.val_main_v43 Cert.ReferenceIdeal.ReadP.val_main_cst_9 Cert.ReferenceIdeal.ReadP.val_main_v44
    Cert.ReferenceIdeal.ReadP.val_main_v38 Cert.ReferenceIdeal.ReadP.val_main_v37 Cert.ReferenceIdeal.ReadP.val_main_v34
    Cert.ReferenceIdeal.ReadP.val_main_v36 Cert.ReferenceIdeal.ReadP.val_main_v33 Cert.ReferenceIdeal.ReadP.val_main_v35
    Cert.ReferenceIdeal.ReadP.val_main_c_7 Cert.ReferenceIdeal.ReadP.val_main_c_8
  rfl

/-- The normalisation as a column, as the second region finds it. -/
theorem V5_v32 (c : Dev nD) (r : Fin 100000) :
    (V5 m ρ c main_v32 : (⟨S100000x1, .f32⟩ : BufTy).Contents (Elt F)) (ix2 r 0)
      = Cert.ReferenceIdeal.ReadP.val_main_v16 (F := F) (arg1 m c) (ix1 r) := by
  show (StableHlo.after hostOps1 (W4 m ρ c) (Proc.devRef .tc main_v32) : (⟨S100000x1, .f32⟩ : BufTy).Contents (Elt F)) (ix2 r 0) = _
  after_results
  rw [W4_v16]
  exact shapeCast_apply _ _ (ix2 r 0) (ix1 r) (by
    rw [Shape.rowMajor_val_two, Shape.rowMajor_val_one]
    show r.val = r.val * 1 + 0
    omega)

/-- The first bias as a row. -/
theorem V5_v33 (c : Dev nD) (k : Fin 128) :
    (V5 m ρ c main_v33 : (⟨S1x128, .f32⟩ : BufTy).Contents (Elt F)) (ix2 0 k) = arg3 m c (ix1 k) := by
  show (StableHlo.after hostOps1 (W4 m ρ c) (Proc.devRef .tc main_v33) : (⟨S1x128, .f32⟩ : BufTy).Contents (Elt F)) (ix2 0 k) = _
  after_results
  rw [W4_arg3]
  exact shapeCast_apply _ _ (ix2 0 k) (ix1 k) (by
    rw [Shape.rowMajor_val_two, Shape.rowMajor_val_one]
    show k.val = 0 * 128 + k.val
    omega)

/-- The second weight matrix in the narrower format. -/
theorem V5_v18 (c : Dev nD) : V5 m ρ c main_v18 = truncf .bf16 (arg4 m c) bitsLt_bf16_f32 := by
  show StableHlo.after hostOps1 (W4 m ρ c) (Proc.devRef .tc main_v18) = _
  after_results
  exact W4_v18 m ρ c

/-! ## The buffers the last host operations read, walked back through the second region and the host operations before it -/

/-- The second region's output array, at the second region's exit. -/
private theorem W6_v34 (c : Dev nD) : W6 m ρ c (Proc.devRef .tc main_v34) = z2arr m ρ c := W6_arr m ρ c 4

/-- The source nodes, the target nodes, the normalisation and the second bias are no array of the second region and no
    host operation between the regions writes them. -/
private theorem W6_v3 (c : Dev nD) :
    W6 m ρ c (Proc.devRef .tc main_v3) = Cert.ReferenceIdeal.ReadP.val_main_v3 (F := F) (arg1 m c) := by
  rw [W6_of_ne m ρ c main_v3 (by decide)]
  show StableHlo.after hostOps1 (W4 m ρ c) (Proc.devRef .tc main_v3) = _
  after_results
  exact W4_v3 m ρ c
private theorem W6_v6 (c : Dev nD) :
    W6 m ρ c (Proc.devRef .tc main_v6) = Cert.ReferenceIdeal.ReadP.val_main_v6 (F := F) (arg1 m c) := by
  rw [W6_of_ne m ρ c main_v6 (by decide)]
  show StableHlo.after hostOps1 (W4 m ρ c) (Proc.devRef .tc main_v6) = _
  after_results
  exact W4_v6 m ρ c
private theorem W6_v16 (c : Dev nD) :
    W6 m ρ c (Proc.devRef .tc main_v16) = Cert.ReferenceIdeal.ReadP.val_main_v16 (F := F) (arg1 m c) := by
  rw [W6_of_ne m ρ c main_v16 (by decide)]
  show StableHlo.after hostOps1 (W4 m ρ c) (Proc.devRef .tc main_v16) = _
  after_results
  exact W4_v16 m ρ c
private theorem W6_arg5 (c : Dev nD) : W6 m ρ c (Proc.devRef .tc main_arg5) = arg5 m c := by
  rw [W6_of_ne m ρ c main_arg5 (by decide)]
  show StableHlo.after hostOps1 (W4 m ρ c) (Proc.devRef .tc main_arg5) = _
  after_results
  exact W4_arg5 m ρ c

/-- The result: each row of the second aggregate scaled by the node's normalisation, plus the second bias. -/
theorem W7_v51 (c : Dev nD) :
    W7 m ρ c (Proc.devRef .tc main_v51)
      = addf (mulf (broadcastInDim S100000x64 ![0, 1] bcast_S100000x1_S100000x64_0_1
                (broadcastInDim S100000x1 ![0] bcast_S100000_S100000x1_0 (Cert.ReferenceIdeal.ReadP.val_main_v16 (F := F) (arg1 m c))))
              (Host.scatterAdd Cert.ReferenceIdeal.scatter_S100000x64_S1700000x1_S1700000x64_1_0_0_1
                (Cert.ReferenceIdeal.ReadP.val_main_v61 (F := F)) (Cert.ReferenceIdeal.ReadP.val_main_v62 (F := F) (arg1 m c))
                (extf .f32 (Host.gather Cert.ReferenceIdeal.gather_S100000x64_S1700000x1_S1700000x64_1_0_n_n_0_1_164
                  (z2arr m ρ c) (Cert.ReferenceIdeal.ReadP.val_main_v56 (F := F) (arg1 m c))) bitsLt_bf16_f32)))
          (Cert.ReferenceIdeal.ReadP.val_main_v65 (F := F) (arg5 m c)) := by
  show StableHlo.after hostOps2 (W6 m ρ c) (Proc.devRef .tc main_v51) = _
  after_results_simp
  rw [W6_v34, W6_v3, W6_v6, W6_v16, W6_arg5]
  unfold Cert.ReferenceIdeal.ReadP.val_main_v61 Cert.ReferenceIdeal.ReadP.val_main_cst_12 Cert.ReferenceIdeal.ReadP.val_main_v62
    Cert.ReferenceIdeal.ReadP.val_main_v56 Cert.ReferenceIdeal.ReadP.val_main_v55 Cert.ReferenceIdeal.ReadP.val_main_v52
    Cert.ReferenceIdeal.ReadP.val_main_v54 Cert.ReferenceIdeal.ReadP.val_main_v51 Cert.ReferenceIdeal.ReadP.val_main_v53
    Cert.ReferenceIdeal.ReadP.val_main_c_10 Cert.ReferenceIdeal.ReadP.val_main_c_11
    Cert.ReferenceIdeal.ReadP.val_main_v65 Cert.ReferenceIdeal.ReadP.val_main_v64
  rfl

end Cert.KernelIdeal.Hand

end
-- ==== Proof.LibRowIndex.lean ====
/-
  Row gathers and row scatter-adds read at an index.

  `table[idx]` over a rank-2 table `[N, C]` with a column `[n, 1]` of row numbers prints as a gather whose
  first operand axis is collapsed and start-indexed and whose second is an offset axis: result element
  `(e, c)` reads the table at row `idx[e, 0]` — read as a signed number and clamped into `[0, N - 1]` — and
  column `c`. The matching scatter-add sends update element `(e, c)` to row `idx[e, 0]`, column `c`, when
  that row number, read signed and NOT clamped, lies in `[0, N)`, and drops it otherwise. A row number that
  is not negative is left alone by the wrap `if v < 0 then v + N else v`.
-/
import Idealize.ShloMosaic.PureOps
import Idealize.ShloMosaic.Lib.ValueIdx
import Idealize.ShloMosaic.Lib.StableHlo.Predicate

namespace Cert.Lib.RowIndex

open Idealize.ShloMosaic Idealize.ShloMosaic.ValueIdx Idealize.ShloMosaic.StableHlo.Predicate

/-- The row a row gather reads for result element `(e, c)`: the start index of row `e`, signed, clamped. -/
theorem gatherRows_row {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (c : Fin C) :
    ((d.operandIdx (ix2 e c) idx) 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  show d.start (ix2 e c) idx 0 + d.batchCoord (ix2 e c) 0 + d.offCoord (ix2 e c) 0 = _
  rw [GatherDims.batchCoord_eq_zero _ _ _ hb, GatherDims.offCoord_eq_zero _ _ _ hk]
  simp only [Nat.add_zero]
  unfold GatherDims.start
  rw [dif_pos hm, hsl]
  -- the start-indices index the row axis reads its one component at is row `e` of the column
  have hsi : d.siIdx (ix2 e c) ⟨d.startIndexMap.idxOf 0, List.idxOf_lt_length_iff.2 hm⟩ = ixP e := by
    funext b
    match b with
    | ⟨0, _⟩ =>
      -- every batch axis of the result is axis 0 (its only other axis is the offset axis)
      have hbd : ∀ X ∈ d.batchDims, X = (0 : Fin 2) := by
        intro X hX
        have hX' : X ∈ (⟨2, ![n, C]⟩ : Shape).kept d.offsetDims := hX
        rw [hoff] at hX'
        simp only [Shape.kept, List.mem_filter, List.mem_finRange, true_and, List.mem_singleton, decide_not,
          Bool.not_eq_eq_eq_not, Bool.not_true, decide_eq_false_iff_not] at hX'
        match X, hX' with
        | ⟨0, _⟩, _ => rfl
        | ⟨1, _⟩, h1 => exact absurd rfl h1
      have key : ∀ X : Fin 2, X = 0 → ((ix2 e c : (⟨2, ![n, C]⟩ : Shape).Idx) X).val = e.val := by
        intro X hX; subst hX; rfl
      unfold GatherDims.siIdx
      rw [dif_neg (by rw [hivd]; simp)]
      unfold GatherDims.siCoord
      apply Fin.ext
      simp only [Fin.val_cast]
      exact key _ (hbd _ (List.getElem_mem _))
    | ⟨1, _⟩ =>
      unfold GatherDims.siIdx
      rw [dif_pos (by rw [hivd])]
      apply Fin.ext
      show List.idxOf (0 : Fin 2) d.startIndexMap = 0
      rw [hsim]; simp
  rw [hsi]
  rfl

/-- The column it reads is the result element's own. -/
theorem gatherRows_col {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (c : Fin C) :
    ((d.operandIdx (ix2 e c) idx) 1).val = c.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  show d.start (ix2 e c) idx 1 + d.batchCoord (ix2 e c) 1 + d.offCoord (ix2 e c) 1 = _
  rw [GatherDims.batchCoord_eq_zero _ _ _ hb]
  unfold GatherDims.start GatherDims.offCoord
  rw [dif_neg hm, dif_pos hk]
  simp only [Nat.add_zero, Nat.zero_add]
  -- every offset axis of the result is axis 1
  have hod : ∀ X ∈ d.offsetDims, X = (1 : Fin 2) := by
    intro X hX; rw [hoff] at hX; exact List.mem_singleton.mp hX
  have key : ∀ X : Fin 2, X = 1 → ((ix2 e c : (⟨2, ![n, C]⟩ : Shape).Idx) X).val = c.val := by
    intro X hX; subst hX; rfl
  exact key _ (hod _ (List.getElem_mem _))

/-- Where update element `(e, c)` of a row scatter lands, when it lands: the row is the scatter index of
    row `e` read signed (so it is not negative and below `N`), the column is `c`. -/
theorem scatterRows_some {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (c : Fin C) (i : (⟨2, ![N, C]⟩ : Shape).Idx)
    (h : d.resultIdx? (ix2 e c) idx = some i) :
    (idx (ixP e)).toInt = ((i 0).val : Int) ∧ (i 1).val = c.val := by
  have hk0 : (0 : Fin 2) ∉ d.sKept := by
    show (0 : Fin 2) ∉ (⟨2, ![N, C]⟩ : Shape).kept d.insertedWindowDims
    rw [hiw]; simp [Shape.kept]
  have hk1 : (1 : Fin 2) ∈ d.sKept := by
    show (1 : Fin 2) ∈ (⟨2, ![N, C]⟩ : Shape).kept d.insertedWindowDims
    rw [hiw]; simp [Shape.kept, List.mem_finRange]
  have hm0 : (0 : Fin 2) ∈ d.scatterDimsToOperandDims := by rw [hsd]; exact List.mem_singleton.mpr rfl
  have hm1 : (1 : Fin 2) ∉ d.scatterDimsToOperandDims := by rw [hsd]; simp
  -- the window coordinates: none on the inserted row axis, the update's column on the column axis
  have hw0 : d.window (ix2 e c) 0 = 0 := by unfold ScatterDims.window; rw [dif_neg hk0]
  have hw1 : d.window (ix2 e c) 1 = c.val := by
    unfold ScatterDims.window; rw [dif_pos hk1]
    have hud : ∀ X ∈ d.updateWindowDims, X = (1 : Fin 2) := by
      intro X hX; rw [huw] at hX; exact List.mem_singleton.mp hX
    have key : ∀ X : Fin 2, X = 1 → ((ix2 e c : (⟨2, ![n, C]⟩ : Shape).Idx) X).val = c.val := by
      intro X hX; subst hX; rfl
    exact key _ (hud _ (List.getElem_mem _))
  -- the starts: the scatter index of row `e`, read signed, on the row axis; none on the column axis
  have hs1 : d.start (ix2 e c) idx 1 = 0 := by unfold ScatterDims.start; rw [dif_neg hm1]
  have hs0 : d.start (ix2 e c) idx 0 = (idx (ixP e)).toInt := by
    unfold ScatterDims.start; rw [dif_pos hm0]
    have hsi : d.siIdx (ix2 e c) ⟨d.scatterDimsToOperandDims.idxOf 0, List.idxOf_lt_length_iff.2 hm0⟩ = ixP e := by
      funext b
      match b with
      | ⟨0, _⟩ =>
        -- every scatter axis of the updates is axis 0 (the other is the window axis)
        have hus : ∀ X ∈ d.uScatter, X = (0 : Fin 2) := by
          intro X hX
          have hX' : X ∈ (⟨2, ![n, C]⟩ : Shape).kept d.updateWindowDims := hX
          rw [huw] at hX'
          simp only [Shape.kept, List.mem_filter, List.mem_finRange, true_and, List.mem_singleton, decide_not,
            Bool.not_eq_eq_eq_not, Bool.not_true, decide_eq_false_iff_not] at hX'
          match X, hX' with
          | ⟨0, _⟩, _ => rfl
          | ⟨1, _⟩, h1 => exact absurd rfl h1
        have key : ∀ X : Fin 2, X = 0 → ((ix2 e c : (⟨2, ![n, C]⟩ : Shape).Idx) X).val = e.val := by
          intro X hX; subst hX; rfl
        unfold ScatterDims.siIdx
        rw [dif_neg (by rw [hivd]; simp)]
        unfold ScatterDims.siCoord
        apply Fin.ext
        simp only [Fin.val_cast]
        exact key _ (hus _ (List.getElem_mem _))
      | ⟨1, _⟩ =>
        unfold ScatterDims.siIdx
        rw [dif_pos (by rw [hivd])]
        apply Fin.ext
        show List.idxOf (0 : Fin 2) d.scatterDimsToOperandDims = 0
        rw [hsd]; simp
    rw [hsi]
  unfold ScatterDims.resultIdx? at h
  split at h
  · next hall =>
    have hi := Option.some.inj h
    have h0 := (hall 0).1
    rw [hs0, hw0] at h0
    constructor
    · rw [← hi]
      show _ = (((d.start (ix2 e c) idx 0 + (d.window (ix2 e c) 0 : Nat)).toNat : Nat) : Int)
      rw [hs0, hw0]
      simp only [Nat.cast_zero, Int.add_zero] at h0 ⊢
      exact (Int.toNat_of_nonneg h0).symm
    · rw [← hi]
      show (d.start (ix2 e c) idx 1 + (d.window (ix2 e c) 1 : Nat)).toNat = c.val
      rw [hs1, hw1]
      simp
  · exact absurd h (by simp)

/-- The wrap of a row number that is not negative is the row number. -/
theorem wrap_of_nonneg (v k : BitVec 32) (h : 0 ≤ v.toInt) :
    Scalar.select (IntOp.cmpi .slt v 0#32) (IntOp.addi v k) v = v := by
  -- a word that is not negative is not below zero, so the comparison bit is clear and the select keeps `v`
  have hs : v.slt 0#32 = false := by
    simp only [BitVec.slt, BitVec.toInt_zero]
    exact decide_eq_false (by omega)
  unfold Scalar.select IntOp.cmpi
  simp only [hs]
  rw [if_neg (by decide)]

end Cert.Lib.RowIndex
-- ==== Proof.CoreIdx.lean ====
/-
  The edges of the graph, read off the index columns.

  Both programs address the node arrays through the same three columns computed from the edge list: the source
  nodes wrapped (`if v < 0 then v + 100000 else v`), the target nodes wrapped, and the target nodes as listed. A row
  gather through a wrapped column reads the row its entry names once read signed and clamped into `[0, 99999]`;
  a scatter-add through the listed targets sends edge `e`'s row to row `target e` when `0 ≤ target e < 100000` and
  drops it otherwise. So when edge `e` lands on row `i`, its target is not negative, the wrap leaves it alone, the
  clamp leaves it alone, and the node the wrapped column names for it is `i` itself: the normalisation the
  reference gathers at the edge's target is the normalisation of the row the edge is summed into.
-/
import proofs.«422813_j14388140441811_3_alg».proof.Proof.RefRead
import proofs.«422813_j14388140441811_3_alg».proof.Proof.LibRowIndex
import Idealize.ShloMosaic.Lib.StableHlo.Predicate
import Idealize.ShloMosaic.Lib.ValueIdx
import Idealize.ShloMosaic.PureOps.Ideal.Laws

noncomputable section

open Idealize.ShloMosaic Idealize.ShloMosaic.ValueIdx Idealize.ShloMosaic.StableHlo.Predicate

namespace Cert.Bridge

open Cert.ReferenceIdeal Cert.ReferenceIdeal.Gen Cert.ReferenceIdeal.ReadP Cert.Lib.RowIndex

/-! ## A scatter-add as a sum over the updates that land on an entry -/

open Classical in
/-- The update indices a scatter sends to entry `i`. -/
def land {s si su : Shape} {w : Nat} (d : ScatterDims s si su) (idx : IVec si w) (i : s.Idx) : Finset su.Idx :=
  Finset.univ.filter fun u => d.resultIdx? u idx = some i

theorem mem_land {s si su : Shape} {w : Nat} (d : ScatterDims s si su) (idx : IVec si w) (i : s.Idx) (u : su.Idx) :
    u ∈ land d idx i ↔ d.resultIdx? u idx = some i := by
  simp [land]

/-- On the extended reals a scatter-add is, entry by entry, the operand plus the sum of the updates landing there. -/
theorem scatterAdd_apply {s si su : Shape} {w : Nat} {φ : FTy} (d : ScatterDims s si su) (x : FVec Ideal s φ)
    (idx : IVec si w) (upd : FVec Ideal su φ) (i : s.Idx) :
    Host.scatterAdd d x idx upd i = x i + ∑ u ∈ land d idx i, upd u := by
  show Ideal.hostScatterAdd d x idx upd i = _
  unfold Ideal.hostScatterAdd
  refine congrArg (x i + ·) (Finset.sum_congr ?_ fun _ _ => rfl)
  ext u
  simp [land]

/-! ## The nodes an edge joins -/

/-- The node a row number names once read signed and clamped into the table of 100000 rows. -/
def nodeOf (v : BitVec 32) : Fin 100000 := ⟨min v.toInt.toNat 99999, by omega⟩

theorem ix1_eq_ofFin {n : Nat} (k : Fin n) : ix1 k = Shape.Idx.ofFin k := Shape.Idx.eq_ofFin (ix1 k)

variable (x1 : (⟨S2x1600000, .i32⟩ : BufTy).Contents (Elt Ideal))

/-- The source node of edge `e`, as the wrapped source column names it. -/
def srcNode (e : Fin 1700000) : Fin 100000 := nodeOf (val_main_v22 (F := Ideal) x1 (ixP e))

/-- The target node of edge `e`, as the wrapped target column names it. -/
def tgtNode (e : Fin 1700000) : Fin 100000 := nodeOf (val_main_v29 (F := Ideal) x1 (ixP e))

/-- The program recomputes the wrapped source column and the listed target column before each use: the copies are
    one term. -/
theorem v38_eq : val_main_v38 (F := Ideal) x1 = val_main_v22 (F := Ideal) x1 := rfl
theorem v56_eq : val_main_v56 (F := Ideal) x1 = val_main_v22 (F := Ideal) x1 := rfl
theorem v62_eq : val_main_v62 (F := Ideal) x1 = val_main_v44 (F := Ideal) x1 := rfl

/-- A row gather of 128 columns through the wrapped sources reads row `srcNode e`, column `c`. -/
theorem gather128_row (e : Fin 1700000) (c : Fin 128) :
    (gather_S100000x128_S1700000x1_S1700000x128_1_0_n_n_0_1_1128.operandIdx (ix2 e c) (val_main_v22 (F := Ideal) x1)) 0
      = srcNode x1 e :=
  Fin.ext ((gatherRows_row gather_S100000x128_S1700000x1_S1700000x128_1_0_n_n_0_1_1128 rfl rfl rfl rfl rfl
    (val_main_v22 (F := Ideal) x1) e c).trans rfl)

theorem gather128_col (e : Fin 1700000) (c : Fin 128) :
    (gather_S100000x128_S1700000x1_S1700000x128_1_0_n_n_0_1_1128.operandIdx (ix2 e c) (val_main_v22 (F := Ideal) x1)) 1 = c :=
  Fin.ext (gatherRows_col gather_S100000x128_S1700000x1_S1700000x128_1_0_n_n_0_1_1128 rfl rfl rfl rfl rfl
    (val_main_v22 (F := Ideal) x1) e c)

/-- The same for 64 columns. -/
theorem gather64_row (e : Fin 1700000) (c : Fin 64) :
    (gather_S100000x64_S1700000x1_S1700000x64_1_0_n_n_0_1_164.operandIdx (ix2 e c) (val_main_v22 (F := Ideal) x1)) 0
      = srcNode x1 e :=
  Fin.ext ((gatherRows_row gather_S100000x64_S1700000x1_S1700000x64_1_0_n_n_0_1_164 rfl rfl rfl rfl rfl
    (val_main_v22 (F := Ideal) x1) e c).trans rfl)

theorem gather64_col (e : Fin 1700000) (c : Fin 64) :
    (gather_S100000x64_S1700000x1_S1700000x64_1_0_n_n_0_1_164.operandIdx (ix2 e c) (val_main_v22 (F := Ideal) x1)) 1 = c :=
  Fin.ext (gatherRows_col gather_S100000x64_S1700000x1_S1700000x64_1_0_n_n_0_1_164 rfl rfl rfl rfl rfl
    (val_main_v22 (F := Ideal) x1) e c)

/-- When the listed target of edge `e` read signed is the row number `n < 100000`, the wrapped target column names
    node `n` for it. -/
theorem tgtNode_of_listed (e : Fin 1700000) (n : Nat) (hn : n < 100000)
    (h : (val_main_v44 (F := Ideal) x1 (ixP e)).toInt = (n : Int)) : (tgtNode x1 e).val = n := by
  have h6 : (val_main_v6 (F := Ideal) x1 (idx_main_v44 (ixP e))).toInt = (n : Int) := by
    rw [← val_main_v44_apply]; exact h
  have hw : val_main_v29 (F := Ideal) x1 (ixP e) = val_main_v6 (F := Ideal) x1 (idx_main_v44 (ixP e)) := by
    rw [val_main_v29_apply, val_main_v28_apply, val_main_v25_apply, val_main_v27_apply, val_main_v24_apply,
      val_main_v26_apply, val_main_c_5_apply, val_main_c_6_apply]
    exact wrap_of_nonneg _ _ (by
      show 0 ≤ (val_main_v6 (F := Ideal) x1 (idx_main_v44 (ixP e))).toInt
      rw [h6]; exact Int.natCast_nonneg n)
  show min (val_main_v29 (F := Ideal) x1 (ixP e)).toInt.toNat 99999 = n
  rw [hw, h6, Int.toNat_natCast]
  omega

/-- An edge-and-column that lands on entry `i` of a 128-column array has target node `i 0` and column `i 1`. -/
theorem land128_tgt (e : Fin 1700000) (c : Fin 128) (i : S100000x128.Idx)
    (h : ix2 e c ∈ land scatter_S100000x128_S1700000x1_S1700000x128_1_0_0_1 (val_main_v44 (F := Ideal) x1) i) :
    tgtNode x1 e = i 0 ∧ c = i 1 := by
  obtain ⟨h0, h1⟩ := scatterRows_some scatter_S100000x128_S1700000x1_S1700000x128_1_0_0_1 rfl rfl rfl rfl
    (val_main_v44 (F := Ideal) x1) e c i ((mem_land _ _ _ _).1 h)
  exact ⟨Fin.ext (tgtNode_of_listed x1 e (i 0).val (i 0).isLt h0), Fin.ext h1.symm⟩

/-- The same for a 64-column array. -/
theorem land64_tgt (e : Fin 1700000) (c : Fin 64) (i : S100000x64.Idx)
    (h : ix2 e c ∈ land scatter_S100000x64_S1700000x1_S1700000x64_1_0_0_1 (val_main_v44 (F := Ideal) x1) i) :
    tgtNode x1 e = i 0 ∧ c = i 1 := by
  obtain ⟨h0, h1⟩ := scatterRows_some scatter_S100000x64_S1700000x1_S1700000x64_1_0_0_1 rfl rfl rfl rfl
    (val_main_v44 (F := Ideal) x1) e c i ((mem_land _ _ _ _).1 h)
  exact ⟨Fin.ext (tgtNode_of_listed x1 e (i 0).val (i 0).isLt h0), Fin.ext h1.symm⟩

/-- The normalisation gathered at an edge's source, and at its target. -/
theorem gather_at_src (D : FVec Ideal S100000 .f32) (e : Fin 1700000) :
    Host.gather gather_S100000_S1700000x1_S1700000_n_0_n_n_0_1_1 D (val_main_v22 (F := Ideal) x1) (ix1 e)
      = D (ix1 (srcNode x1 e)) := by
  rw [ix1_eq_ofFin e, gather_take gather_S100000_S1700000x1_S1700000_n_0_n_n_0_1_1 rfl rfl rfl rfl D
    (val_main_v22 (F := Ideal) x1) e (by decide), ix1_eq_ofFin]
  rfl

theorem gather_at_tgt (D : FVec Ideal S100000 .f32) (e : Fin 1700000) :
    Host.gather gather_S100000_S1700000x1_S1700000_n_0_n_n_0_1_1 D (val_main_v29 (F := Ideal) x1) (ix1 e)
      = D (ix1 (tgtNode x1 e)) := by
  rw [ix1_eq_ofFin e, gather_take gather_S100000_S1700000x1_S1700000_n_0_n_n_0_1_1 rfl rfl rfl rfl D
    (val_main_v29 (F := Ideal) x1) e (by decide), ix1_eq_ofFin]
  rfl

end Cert.Bridge

end
-- ==== Proof.LibCoeSums.lean ====
/-
  Finite sums and products of real numbers inside the extended reals.

  The extended reals are not a ring: distributivity and the exchange of a factor with a sum fail at the
  infinities. Every law used by this certificate is therefore proved on the REAL numbers and carried across
  the coercion `ℝ → EReal`, which preserves `+`, `*`, `max` and finite sums.

  The two "layer" lemmas state the one identity behind a normalised graph convolution: for a node `i`,
  edges `u ∈ L` that all land on `i` (`t u = i`), a source node `p u` and an output column `q u` per edge,

      d i * ∑ u ∈ L, ∑ k, (x (p u) k * d (p u)) * w k (q u) + b
        = ∑ u ∈ L, (∑ k, x (p u) k * w k (q u)) * (d (p u) * d (t u)) + b,

  the left side scaling rows before the product and the aggregate after it, the right side scaling every
  message by the symmetric normalisation `d (source) * d (target)`. Both sides are given as the coercion of
  ONE real number, so that the result is also known to be finite.
-/
import Mathlib.Data.EReal.Inv
import Mathlib.Algebra.BigOperators.Ring.Finset
import Mathlib.Tactic.Ring

namespace Cert.Lib.CoeSums

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with `max`. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

variable {U ν κ γ : Type*} [Fintype κ]

/-- The real number both arrangements of a layer compute at node `i`. -/
def layerVal (L : Finset U) (p : U → ν) (q : U → γ) (x : ν → κ → ℝ) (w : κ → γ → ℝ) (d : ν → ℝ) (b : ℝ) (i : ν) : ℝ :=
  d i * (∑ u ∈ L, ∑ k, x (p u) k * d (p u) * w k (q u)) + b

/-- Rows scaled before the product (`(x * d) * w`), the aggregate scaled after it. -/
theorem scaled_rows (L : Finset U) (p : U → ν) (q : U → γ) (x : ν → κ → ℝ) (w : κ → γ → ℝ) (d : ν → ℝ) (b : ℝ) (i : ν) :
    (d i : EReal) * (∑ u ∈ L, ∑ k, ((x (p u) k : EReal) * (d (p u) : EReal)) * (w k (q u) : EReal)) + (b : EReal)
      = (layerVal L p q x w d b i : EReal) := by
  unfold layerVal
  simp only [EReal.coe_add, EReal.coe_mul, coe_sum]

/-- The same with the scale written first in each row (`(d * x) * w`). -/
theorem scaled_rows' (L : Finset U) (p : U → ν) (q : U → γ) (x : ν → κ → ℝ) (w : κ → γ → ℝ) (d : ν → ℝ) (b : ℝ) (i : ν) :
    (d i : EReal) * (∑ u ∈ L, ∑ k, ((d (p u) : EReal) * (x (p u) k : EReal)) * (w k (q u) : EReal)) + (b : EReal)
      = (layerVal L p q x w d b i : EReal) := by
  rw [← scaled_rows L p q x w d b i]
  refine congrArg (fun s => (d i : EReal) * s + (b : EReal)) ?_
  refine Finset.sum_congr rfl fun u _ => Finset.sum_congr rfl fun k _ => ?_
  rw [EReal.mul_comm (d (p u) : EReal)]

/-- Every message scaled by the product of the two end nodes' scales, when every edge of `L` lands on `i`. -/
theorem scaled_messages (L : Finset U) (p : U → ν) (q : U → γ) (t : U → ν) (x : ν → κ → ℝ) (w : κ → γ → ℝ)
    (d : ν → ℝ) (b : ℝ) (i : ν) (ht : ∀ u ∈ L, t u = i) :
    (∑ u ∈ L, (∑ k, (x (p u) k : EReal) * (w k (q u) : EReal)) * ((d (p u) : EReal) * (d (t u) : EReal))) + (b : EReal)
      = (layerVal L p q x w d b i : EReal) := by
  have h : layerVal L p q x w d b i
      = (∑ u ∈ L, (∑ k, x (p u) k * w k (q u)) * (d (p u) * d (t u))) + b := by
    unfold layerVal
    congr 1
    rw [Finset.mul_sum]
    refine Finset.sum_congr rfl fun u hu => ?_
    rw [ht u hu, Finset.mul_sum, Finset.sum_mul]
    refine Finset.sum_congr rfl fun k _ => ?_
    ring
  rw [h]
  simp only [EReal.coe_add, EReal.coe_mul, coe_sum]

end Cert.Lib.CoeSums
-- ==== Proof.CoreRef.lean ====
/-
  The two layers as real numbers, and the reference's values in them.

  With real features `x`, weights `w₁ w₂`, biases `b₁ b₂` and normalisation `d`, write for node `r`

      lay₁ r k = d r * ∑ (edges e landing on r) ∑ k', x (src e) k' * d (src e) * w₁ k' k + b₁ k,
      hid r k  = max (lay₁ r k) 0,
      lay₂ r q = d r * ∑ (edges e landing on r) ∑ k, hid (src e) k * d (src e) * w₂ k q + b₂ q.

  The reference multiplies first (`x · w`), gathers rows by source, scales each message by `d (src e) * d (tgt e)`,
  sums by target and adds the bias; an edge summed into row `r` has target `r`, so its scale is `d (src e) * d r`
  and the sum is `lay` by distributivity over the reals. Each stage is read at an index from the stage before it.
-/
import proofs.«422813_j14388140441811_3_alg».proof.Proof.RefRead
import proofs.«422813_j14388140441811_3_alg».proof.Proof.CoreIdx
import proofs.«422813_j14388140441811_3_alg».proof.Proof.LibCoeSums
import Idealize.ShloMosaic.PureOps.Ideal.Laws

noncomputable section

open Idealize.ShloMosaic Idealize.ShloMosaic.ValueIdx Idealize.ShloMosaic.StableHlo.Predicate

namespace Cert.Bridge

open Cert.ReferenceIdeal Cert.ReferenceIdeal.Gen Cert.ReferenceIdeal.ReadP Cert.Lib.CoeSums

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
variable (xr : Fin 100000 → Fin 128 → ℝ) (w1r : Fin 128 → Fin 128 → ℝ) (b1r : Fin 128 → ℝ)
  (w2r : Fin 128 → Fin 64 → ℝ) (b2r : Fin 64 → ℝ) (dr : Fin 100000 → ℝ)

/-- The edges, with an output column, that are summed into entry `(r, k)` of a 128-column array. -/
abbrev L128 (r : Fin 100000) (k : Fin 128) : Finset S1700000x128.Idx :=
  land scatter_S100000x128_S1700000x1_S1700000x128_1_0_0_1 (val_main_v44 (F := Ideal) x1) (ix2 r k)

/-- The same for a 64-column array. -/
abbrev L64 (r : Fin 100000) (q : Fin 64) : Finset S1700000x64.Idx :=
  land scatter_S100000x64_S1700000x1_S1700000x64_1_0_0_1 (val_main_v44 (F := Ideal) x1) (ix2 r q)

/-- The first layer before its cut-off, at node `r` and feature `k`. -/
def lay1 (r : Fin 100000) (k : Fin 128) : ℝ :=
  layerVal (L128 x1 r k) (fun u => srcNode x1 (u 0)) (fun u => (u 1 : Fin 128)) xr w1r dr (b1r k) r

/-- The first layer's output. -/
def hid (r : Fin 100000) (k : Fin 128) : ℝ := max (lay1 x1 xr w1r b1r dr r k) 0

/-- The second layer, at node `r` and output `q`. -/
def lay2 (r : Fin 100000) (q : Fin 64) : ℝ :=
  layerVal (L64 x1 r q) (fun u => srcNode x1 (u 0)) (fun u => (u 1 : Fin 64)) (hid x1 xr w1r b1r dr) w2r dr (b2r q) r

variable (hx : ∀ r k, x0 (ix2 r k) = ((xr r k : ℝ) : EReal)) (hw1 : ∀ k q, x2 (ix2 k q) = ((w1r k q : ℝ) : EReal))
  (hb1 : ∀ k, x3 (ix1 k) = ((b1r k : ℝ) : EReal)) (hw2 : ∀ k q, x4 (ix2 k q) = ((w2r k q : ℝ) : EReal))
  (hb2 : ∀ q, x5 (ix1 q) = ((b2r q : ℝ) : EReal))
  (hd : ∀ r, val_main_v16 (F := Ideal) x1 (ix1 r) = ((dr r : ℝ) : EReal))

include hd in
/-- The scale the reference gives edge `e`'s message: the normalisations of its two end nodes. -/
theorem norm_at (e : Fin 1700000) :
    val_main_v31 (F := Ideal) x1 (ix1 e) = ((dr (srcNode x1 e) : ℝ) : EReal) * ((dr (tgtNode x1 e) : ℝ) : EReal) := by
  rw [val_main_v31_apply]
  show val_main_v23 (F := Ideal) x1 (ix1 e) * val_main_v30 (F := Ideal) x1 (ix1 e) = _
  unfold val_main_v23 val_main_v30
  rw [gather_at_src, gather_at_tgt, hd, hd]

include hx hw1 hd in
/-- Edge `e`'s message for column `c` in the first layer. -/
theorem msg1 (e : Fin 1700000) (c : Fin 128) :
    val_main_v42 (F := Ideal) x0 x1 x2 (ix2 e c)
      = (∑ k : Fin 128, ((xr (srcNode x1 e) k : ℝ) : EReal) * ((w1r k c : ℝ) : EReal))
          * (((dr (srcNode x1 e) : ℝ) : EReal) * ((dr (tgtNode x1 e) : ℝ) : EReal)) := by
  rw [val_main_v42_apply]
  show val_main_v39 (F := Ideal) x0 x1 x2 (ix2 e c) * val_main_v41 (F := Ideal) x1 (ix2 e c) = _
  have h41 : val_main_v41 (F := Ideal) x1 (ix2 e c) = val_main_v31 (F := Ideal) x1 (ix1 e) := by
    rw [val_main_v41_apply, val_main_v40_apply]
    exact congrArg (val_main_v31 (F := Ideal) x1) (funext fun a => by match a with | ⟨0, _⟩ => rfl)
  have h39 : val_main_v39 (F := Ideal) x0 x1 x2 (ix2 e c)
      = ∑ k : Fin 128, ((xr (srcNode x1 e) k : ℝ) : EReal) * ((w1r k c : ℝ) : EReal) := by
    unfold val_main_v39
    show val_main_v32 (F := Ideal) x0 x2
      (gather_S100000x128_S1700000x1_S1700000x128_1_0_n_n_0_1_1128.operandIdx (ix2 e c) (val_main_v38 (F := Ideal) x1)) = _
    rw [val_main_v32_apply]
    refine Finset.sum_congr rfl fun k _ => ?_
    have el : lidx_main_v32 (gather_S100000x128_S1700000x1_S1700000x128_1_0_n_n_0_1_1128.operandIdx (ix2 e c)
        (val_main_v38 (F := Ideal) x1)) k = ix2 (srcNode x1 e) k := funext fun a => by
      match a with
      | ⟨0, _⟩ => exact Fin.ext (congrArg Fin.val (gather128_row x1 e c))
      | ⟨1, _⟩ => rfl
    have er : ridx_main_v32 (gather_S100000x128_S1700000x1_S1700000x128_1_0_n_n_0_1_1128.operandIdx (ix2 e c)
        (val_main_v38 (F := Ideal) x1)) k = ix2 k c := funext fun a => by
      match a with
      | ⟨0, _⟩ => rfl
      | ⟨1, _⟩ => exact Fin.ext (congrArg Fin.val (gather128_col x1 e c))
    rw [el, er, hx, hw1]
  rw [h39, h41, norm_at x1 dr hd e]

include hx hw1 hb1 hd in
/-- The reference's first layer before its cut-off is `lay1`. -/
theorem ref_lay1 (r : Fin 100000) (k : Fin 128) :
    val_main_v48 (F := Ideal) x0 x1 x2 x3 (ix2 r k) = ((lay1 x1 xr w1r b1r dr r k : ℝ) : EReal) := by
  rw [val_main_v48_apply]
  show val_main_v45 (F := Ideal) x0 x1 x2 (ix2 r k) + val_main_v47 (F := Ideal) x3 (ix2 r k) = _
  have hb : val_main_v47 (F := Ideal) x3 (ix2 r k) = ((b1r k : ℝ) : EReal) := by
    rw [val_main_v47_apply, val_main_v46_apply, ← hb1 k]
    exact congrArg x3 (funext fun a => by match a with | ⟨0, _⟩ => rfl)
  have hz : val_main_v43 (F := Ideal) (ix2 r k) = 0 := by
    rw [val_main_v43_apply, val_main_cst_9_apply]; exact Ideal.ofBits_zero_f32
  have hs : val_main_v45 (F := Ideal) x0 x1 x2 (ix2 r k)
      = ∑ u ∈ L128 x1 r k, (∑ k' : Fin 128, ((xr (srcNode x1 (u 0)) k' : ℝ) : EReal) * ((w1r k' (u 1) : ℝ) : EReal))
          * (((dr (srcNode x1 (u 0)) : ℝ) : EReal) * ((dr (tgtNode x1 (u 0)) : ℝ) : EReal)) := by
    unfold val_main_v45
    rw [scatterAdd_apply, hz, zero_add]
    refine Finset.sum_congr rfl fun u _ => ?_
    obtain ⟨e, c, rfl⟩ : ∃ (e : Fin 1700000) (c : Fin 128), u = ix2 e c := ⟨u 0, u 1, eq_ix2 u⟩
    exact msg1 x0 x1 x2 xr w1r dr hx hw1 hd e c
  rw [hs, hb]
  exact scaled_messages (L128 x1 r k) (fun u => srcNode x1 (u 0)) (fun u => (u 1 : Fin 128)) (fun u => tgtNode x1 (u 0))
    xr w1r dr (b1r k) r (fun u hu => by
      obtain ⟨e, c, rfl⟩ : ∃ (e : Fin 1700000) (c : Fin 128), u = ix2 e c := ⟨u 0, u 1, eq_ix2 u⟩
      exact (land128_tgt x1 e c (ix2 r k) hu).1)

include hx hw1 hb1 hd in
/-- The reference's first layer output is `hid`. -/
theorem ref_hid (r : Fin 100000) (k : Fin 128) :
    val_main_v49 (F := Ideal) x0 x1 x2 x3 (ix2 r k) = ((hid x1 xr w1r b1r dr r k : ℝ) : EReal) := by
  rw [val_main_v49_apply]
  show max (val_main_v48 (F := Ideal) x0 x1 x2 x3 (ix2 r k)) (val_main_call1_v0 (F := Ideal) (ix2 r k)) = _
  have hz : val_main_call1_v0 (F := Ideal) (ix2 r k) = ((0 : ℝ) : EReal) := by
    rw [val_main_call1_v0_apply, val_main_call1_cst_apply]; exact Ideal.ofBits_zero_f32
  rw [ref_lay1 x0 x1 x2 x3 xr w1r b1r dr hx hw1 hb1 hd r k, hz]
  exact (coe_max _ _).symm

include hx hw1 hb1 hw2 hd in
/-- Edge `e`'s message for column `c` in the second layer. -/
theorem msg2 (e : Fin 1700000) (c : Fin 64) :
    val_main_v60 (F := Ideal) x0 x1 x2 x3 x4 (ix2 e c)
      = (∑ k : Fin 128, ((hid x1 xr w1r b1r dr (srcNode x1 e) k : ℝ) : EReal) * ((w2r k c : ℝ) : EReal))
          * (((dr (srcNode x1 e) : ℝ) : EReal) * ((dr (tgtNode x1 e) : ℝ) : EReal)) := by
  rw [val_main_v60_apply]
  show val_main_v57 (F := Ideal) x0 x1 x2 x3 x4 (ix2 e c) * val_main_v59 (F := Ideal) x1 (ix2 e c) = _
  have h59 : val_main_v59 (F := Ideal) x1 (ix2 e c) = val_main_v31 (F := Ideal) x1 (ix1 e) := by
    rw [val_main_v59_apply, val_main_v58_apply]
    exact congrArg (val_main_v31 (F := Ideal) x1) (funext fun a => by match a with | ⟨0, _⟩ => rfl)
  have h57 : val_main_v57 (F := Ideal) x0 x1 x2 x3 x4 (ix2 e c)
      = ∑ k : Fin 128, ((hid x1 xr w1r b1r dr (srcNode x1 e) k : ℝ) : EReal) * ((w2r k c : ℝ) : EReal) := by
    unfold val_main_v57
    show val_main_v50 (F := Ideal) x0 x1 x2 x3 x4
      (gather_S100000x64_S1700000x1_S1700000x64_1_0_n_n_0_1_164.operandIdx (ix2 e c) (val_main_v56 (F := Ideal) x1)) = _
    rw [val_main_v50_apply]
    refine Finset.sum_congr rfl fun k _ => ?_
    have el : lidx_main_v50 (gather_S100000x64_S1700000x1_S1700000x64_1_0_n_n_0_1_164.operandIdx (ix2 e c)
        (val_main_v56 (F := Ideal) x1)) k = ix2 (srcNode x1 e) k := funext fun a => by
      match a with
      | ⟨0, _⟩ => exact Fin.ext (congrArg Fin.val (gather64_row x1 e c))
      | ⟨1, _⟩ => rfl
    have er : ridx_main_v50 (gather_S100000x64_S1700000x1_S1700000x64_1_0_n_n_0_1_164.operandIdx (ix2 e c)
        (val_main_v56 (F := Ideal) x1)) k = ix2 k c := funext fun a => by
      match a with
      | ⟨0, _⟩ => rfl
      | ⟨1, _⟩ => exact Fin.ext (congrArg Fin.val (gather64_col x1 e c))
    rw [el, er, ref_hid x0 x1 x2 x3 xr w1r b1r dr hx hw1 hb1 hd, hw2]
  rw [h57, h59, norm_at x1 dr hd e]

include hx hw1 hb1 hw2 hb2 hd in
/-- The reference's result is `lay2`. -/
theorem ref_out (r : Fin 100000) (q : Fin 64) :
    val_main_v66 (F := Ideal) x0 x1 x2 x3 x4 x5 (ix2 r q) = ((lay2 x1 xr w1r b1r w2r b2r dr r q : ℝ) : EReal) := by
  rw [val_main_v66_apply]
  show val_main_v63 (F := Ideal) x0 x1 x2 x3 x4 (ix2 r q) + val_main_v65 (F := Ideal) x5 (ix2 r q) = _
  have hb : val_main_v65 (F := Ideal) x5 (ix2 r q) = ((b2r q : ℝ) : EReal) := by
    rw [val_main_v65_apply, val_main_v64_apply, ← hb2 q]
    exact congrArg x5 (funext fun a => by match a with | ⟨0, _⟩ => rfl)
  have hz : val_main_v61 (F := Ideal) (ix2 r q) = 0 := by
    rw [val_main_v61_apply, val_main_cst_12_apply]; exact Ideal.ofBits_zero_f32
  have hs : val_main_v63 (F := Ideal) x0 x1 x2 x3 x4 (ix2 r q)
      = ∑ u ∈ L64 x1 r q, (∑ k : Fin 128, ((hid x1 xr w1r b1r dr (srcNode x1 (u 0)) k : ℝ) : EReal) * ((w2r k (u 1) : ℝ) : EReal))
          * (((dr (srcNode x1 (u 0)) : ℝ) : EReal) * ((dr (tgtNode x1 (u 0)) : ℝ) : EReal)) := by
    unfold val_main_v63
    rw [scatterAdd_apply, hz, zero_add]
    refine Finset.sum_congr rfl fun u _ => ?_
    obtain ⟨e, c, rfl⟩ : ∃ (e : Fin 1700000) (c : Fin 64), u = ix2 e c := ⟨u 0, u 1, eq_ix2 u⟩
    exact msg2 x0 x1 x2 x3 x4 xr w1r b1r w2r dr hx hw1 hb1 hw2 hd e c
  rw [hs, hb]
  exact scaled_messages (L64 x1 r q) (fun u => srcNode x1 (u 0)) (fun u => (u 1 : Fin 64)) (fun u => tgtNode x1 (u 0))
    (hid x1 xr w1r b1r dr) w2r dr (b2r q) r (fun u hu => by
      obtain ⟨e, c, rfl⟩ : ∃ (e : Fin 1700000) (c : Fin 64), u = ix2 e c := ⟨u 0, u 1, eq_ix2 u⟩
      exact (land64_tgt x1 e c (ix2 r q) hu).1)

end Cert.Bridge

end
-- ==== Proof.CoreKer.lean ====
/-
  The kernel's arrangement of the two layers, in the same real numbers.

  The kernel scales the rows of the features by the normalisation BEFORE the first product (`(x r k * d r) · w₁`),
  gathers the product's rows by source node and sums them by target node with no per-edge scale, and scales the
  aggregate of row `r` by `d r` afterwards; the second product takes `d r * hid r k` as its rows, and the result is
  `d r` times the second aggregate plus the bias. The two products enter only through what each leaves at an index.
  Over the reals `d r * ∑ e, ∑ k, (x (src e) k * d (src e)) * w k q + b` is the layer's value, the same number the
  reference's arrangement gives.
-/
import proofs.«422813_j14388140441811_3_alg».proof.Proof.RefRead
import proofs.«422813_j14388140441811_3_alg».proof.Proof.CoreRef
import Idealize.ShloMosaic.PureOps.Ideal.Laws

noncomputable section

open Idealize.ShloMosaic Idealize.ShloMosaic.ValueIdx Idealize.ShloMosaic.StableHlo.Predicate

namespace Cert.Bridge

open Cert.ReferenceIdeal Cert.ReferenceIdeal.Gen Cert.ReferenceIdeal.ReadP Cert.Lib.CoeSums

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
variable (xr : Fin 100000 → Fin 128 → ℝ) (w1r : Fin 128 → Fin 128 → ℝ) (b1r : Fin 128 → ℝ)
  (w2r : Fin 128 → Fin 64 → ℝ) (b2r : Fin 64 → ℝ) (dr : Fin 100000 → ℝ)
variable (hx : ∀ r k, x0 (ix2 r k) = ((xr r k : ℝ) : EReal)) (hw1 : ∀ k q, x2 (ix2 k q) = ((w1r k q : ℝ) : EReal))
  (hb1 : ∀ k, x3 (ix1 k) = ((b1r k : ℝ) : EReal)) (hw2 : ∀ k q, x4 (ix2 k q) = ((w2r k q : ℝ) : EReal))
  (hb2 : ∀ q, x5 (ix1 q) = ((b2r q : ℝ) : EReal))
  (hd : ∀ r, val_main_v16 (F := Ideal) x1 (ix1 r) = ((dr r : ℝ) : EReal))

/-- The first aggregate over an array `Z1`: its rows gathered by source node and summed by target node, from zero. -/
abbrev agg1Of (Z1 : S100000x128.Idx → EReal) : S100000x128.Idx → EReal :=
  Host.scatterAdd (F := Ideal) (φ := .f32) scatter_S100000x128_S1700000x1_S1700000x128_1_0_0_1 (val_main_v43 (F := Ideal))
    (val_main_v44 (F := Ideal) x1)
    (Host.gather gather_S100000x128_S1700000x1_S1700000x128_1_0_n_n_0_1_1128 Z1 (val_main_v38 (F := Ideal) x1))

/-- The second aggregate over an array `Z2`. -/
abbrev agg2Of (Z2 : S100000x64.Idx → EReal) : S100000x64.Idx → EReal :=
  Host.scatterAdd (F := Ideal) (φ := .f32) scatter_S100000x64_S1700000x1_S1700000x64_1_0_0_1 (val_main_v61 (F := Ideal))
    (val_main_v62 (F := Ideal) x1)
    (Host.gather gather_S100000x64_S1700000x1_S1700000x64_1_0_n_n_0_1_164 Z2 (val_main_v56 (F := Ideal) x1))

variable (Z1 : S100000x128.Idx → EReal) (Z2 : S100000x64.Idx → EReal)
variable (hZ1 : ∀ (r : Fin 100000) (q : Fin 128), Z1 (ix2 r q)
    = ∑ k : Fin 128, (x0 (ix2 r k) * val_main_v16 (F := Ideal) x1 (ix1 r)) * x2 (ix2 k q))
variable (hZ2 : ∀ (r : Fin 100000) (q : Fin 64), Z2 (ix2 r q)
    = ∑ k : Fin 128, (val_main_v16 (F := Ideal) x1 (ix1 r)
        * max (val_main_v16 (F := Ideal) x1 (ix1 r) * agg1Of x1 Z1 (ix2 r k) + x3 (ix1 k)) 0) * x4 (ix2 k q))

include hx hw1 hd hZ1 in
/-- The first aggregate at `(r, k)`: the scaled rows' products, summed over the edges landing on `r`. -/
theorem agg1_apply (r : Fin 100000) (k : Fin 128) :
    agg1Of x1 Z1 (ix2 r k)
      = ∑ u ∈ L128 x1 r k, ∑ k' : Fin 128,
          (((xr (srcNode x1 (u 0)) k' : ℝ) : EReal) * ((dr (srcNode x1 (u 0)) : ℝ) : EReal)) * ((w1r k' (u 1) : ℝ) : EReal) := by
  have hz : val_main_v43 (F := Ideal) (ix2 r k) = 0 := by
    rw [val_main_v43_apply, val_main_cst_9_apply]; exact Ideal.ofBits_zero_f32
  refine (scatterAdd_apply _ _ _ _ _).trans ?_
  rw [hz, zero_add]
  refine Finset.sum_congr rfl fun u _ => ?_
  obtain ⟨e, c, rfl⟩ : ∃ (e : Fin 1700000) (c : Fin 128), u = ix2 e c := ⟨u 0, u 1, eq_ix2 u⟩
  show Z1 (gather_S100000x128_S1700000x1_S1700000x128_1_0_n_n_0_1_1128.operandIdx (ix2 e c) (val_main_v38 (F := Ideal) x1)) = _
  have eo : gather_S100000x128_S1700000x1_S1700000x128_1_0_n_n_0_1_1128.operandIdx (ix2 e c) (val_main_v38 (F := Ideal) x1)
      = ix2 (srcNode x1 e) c := funext fun a => by
    match a with
    | ⟨0, _⟩ => exact gather128_row x1 e c
    | ⟨1, _⟩ => exact gather128_col x1 e c
  rw [eo, hZ1]
  refine Finset.sum_congr rfl fun k' _ => ?_
  rw [hx, hd, hw1]

include hx hw1 hb1 hd hZ1 in
/-- The kernel's first layer output at `(r, k)` is `hid`. -/
theorem ker_hid (r : Fin 100000) (k : Fin 128) :
    max (val_main_v16 (F := Ideal) x1 (ix1 r) * agg1Of x1 Z1 (ix2 r k) + x3 (ix1 k)) 0
      = ((hid x1 xr w1r b1r dr r k : ℝ) : EReal) := by
  rw [agg1_apply x0 x1 x2 xr w1r dr hx hw1 hd Z1 hZ1 r k, hd, hb1]
  rw [scaled_rows (L128 x1 r k) (fun u => srcNode x1 (u 0)) (fun u => (u 1 : Fin 128)) xr w1r dr (b1r k) r]
  exact (coe_max _ _).symm

include hx hw1 hb1 hw2 hd hZ1 hZ2 in
/-- The second aggregate at `(r, q)`. -/
theorem agg2_apply (r : Fin 100000) (q : Fin 64) :
    agg2Of x1 Z2 (ix2 r q)
      = ∑ u ∈ L64 x1 r q, ∑ k : Fin 128,
          (((dr (srcNode x1 (u 0)) : ℝ) : EReal) * ((hid x1 xr w1r b1r dr (srcNode x1 (u 0)) k : ℝ) : EReal)) * ((w2r k (u 1) : ℝ) : EReal) := by
  have hz : val_main_v61 (F := Ideal) (ix2 r q) = 0 := by
    rw [val_main_v61_apply, val_main_cst_12_apply]; exact Ideal.ofBits_zero_f32
  refine (scatterAdd_apply _ _ _ _ _).trans ?_
  rw [hz, zero_add]
  refine Finset.sum_congr rfl fun u _ => ?_
  obtain ⟨e, c, rfl⟩ : ∃ (e : Fin 1700000) (c : Fin 64), u = ix2 e c := ⟨u 0, u 1, eq_ix2 u⟩
  show Z2 (gather_S100000x64_S1700000x1_S1700000x64_1_0_n_n_0_1_164.operandIdx (ix2 e c) (val_main_v56 (F := Ideal) x1)) = _
  have eo : gather_S100000x64_S1700000x1_S1700000x64_1_0_n_n_0_1_164.operandIdx (ix2 e c) (val_main_v56 (F := Ideal) x1)
      = ix2 (srcNode x1 e) c := funext fun a => by
    match a with
    | ⟨0, _⟩ => exact gather64_row x1 e c
    | ⟨1, _⟩ => exact gather64_col x1 e c
  rw [eo, hZ2]
  refine Finset.sum_congr rfl fun k _ => ?_
  rw [ker_hid x0 x1 x2 x3 xr w1r b1r dr hx hw1 hb1 hd Z1 hZ1 (srcNode x1 e) k, hd, hw2]

include hx hw1 hb1 hw2 hb2 hd hZ1 hZ2 in
/-- The kernel's result at `(r, q)`: the row's normalisation times the second aggregate, plus the bias, is `lay2`. -/
theorem ker_out (DB : S100000x64.Idx → EReal) (hDB : ∀ (r : Fin 100000) (q : Fin 64), DB (ix2 r q) = val_main_v16 (F := Ideal) x1 (ix1 r))
    (r : Fin 100000) (q : Fin 64) :
    addf (F := Ideal) (φ := .f32) (mulf (F := Ideal) (φ := .f32) DB (agg2Of x1 Z2)) (val_main_v65 (F := Ideal) x5) (ix2 r q)
      = ((lay2 x1 xr w1r b1r w2r b2r dr r q : ℝ) : EReal) := by
  show DB (ix2 r q) * agg2Of x1 Z2 (ix2 r q) + val_main_v65 (F := Ideal) x5 (ix2 r q) = _
  have hb : val_main_v65 (F := Ideal) x5 (ix2 r q) = ((b2r q : ℝ) : EReal) := by
    rw [val_main_v65_apply, val_main_v64_apply, ← hb2 q]
    exact congrArg x5 (funext fun a => by match a with | ⟨0, _⟩ => rfl)
  rw [hDB, hd, hb, agg2_apply x0 x1 x2 x3 x4 xr w1r b1r w2r dr hx hw1 hb1 hw2 hd Z1 Z2 hZ1 hZ2 r q]
  exact scaled_rows' (L64 x1 r q) (fun u => srcNode x1 (u 0)) (fun u => (u 1 : Fin 64)) (hid x1 xr w1r b1r dr) w2r dr (b2r q) r

end Cert.Bridge

end
-- ==== Proof.Finite.lean ====
/-
  From the precondition to real entries.

  The precondition is the conjunction, over the five float arguments, of "every entry's absolute value is below
  +∞". On the extended reals an entry whose absolute value is below +∞ is neither +∞ nor −∞, hence a real number.
-/
import proofs.«422813_j14388140441811_3_alg».proof.Pre_finite_inputs
import proofs.«422813_j14388140441811_3_alg».proof.Proof.Gen.Pre_finite_inputs
import Idealize.ShloMosaic.PureOps.Ideal.Laws
import Idealize.ShloMosaic.Lib.ReduceAll
import Idealize.ShloMosaic.Lib.ValueIdx

noncomputable section

open Idealize.ShloMosaic

namespace Cert.Pre_finite_inputs.Hand

open Cert.Pre_finite_inputs Cert.Pre_finite_inputs.Gen

/-- The scalar shape has one index. -/
instance : Subsingleton S_.Idx := ⟨fun a b => funext fun d => d.elim0⟩

/-- The word `0x7F800000` reads as +∞. -/
theorem inf_word : Ideal.ofBits .f32 0x7F800000#32 = (⊤ : EReal) := by
  simp [Ideal.ofBits, Ideal.ieee]

/-- An extended real whose absolute value `max a (-a)` is below +∞ is neither +∞ nor −∞: it is a real number. -/
theorem real_of_abs_lt_top (a : EReal) (h : max a (-a) < ⊤) : ∃ r : ℝ, a = (r : EReal) := by
  induction a using EReal.rec with
  | bot => simp at h
  | coe r => exact ⟨r, rfl⟩
  | top => simp at h

/-- `all(|x| < +∞)` read back, at any shape: if the conjunction over all entries of "the absolute value is below the
    splat of +∞" is 1, every entry of `x` is a real number. -/
theorem real_of_all_lt_inf {s : Shape} {axes : List (Fin s.rank)}
    (hb : S_.BroadcastsInDim s (![] : Fin 0 → Fin s.rank)) (hr : s.ReducesTo axes S_) (hu : 0 < S_.numel)
    (x : FVec Ideal s .f32) (j : S_.Idx)
    (h : Host.reduce IntOp.andi (cmpf .olt (Host.absf x) (broadcastInDim s ![] hb (constant S_ .f32 0x7F800000#32)))
      (constantI S_ 1 1#1) hr hu j = 1#1) (i : s.Idx) : ∃ r : ℝ, x i = (r : EReal) := by
  have hi := Host.reduce_andi_all _ _ hr hu j h i
  have hi' : BitVec.ofBool (decide (max (x i) (-(x i)) < Ideal.ofBits .f32 0x7F800000#32)) = 1#1 := hi
  rw [inf_word] at hi'
  apply real_of_abs_lt_top
  by_contra hn
  rw [decide_eq_false hn] at hi'
  exact absurd hi' (by decide)

/-- If the printed precondition holds of the six arguments, every entry of each float argument is a real number. -/
theorem entries_real (x0 : FVec Ideal S100000x128 .f32) (x1 : IVec S2x1600000 32) (x2 : FVec Ideal S128x128 .f32)
    (x3 : FVec Ideal S128 .f32) (x4 : FVec Ideal S128x64 .f32) (x5 : FVec Ideal S64 .f32)
    (h : fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ValueIdx.ix0
  dsimp only [fn, fn_part1] at h0
  -- the result is the conjunction of the five `all`s, nested to the left
  obtain ⟨h0234, h5⟩ := IntOp.andi_eq_one.1 h0
  obtain ⟨h023, h4⟩ := IntOp.andi_eq_one.1 h0234
  obtain ⟨h02, h3⟩ := IntOp.andi_eq_one.1 h023
  obtain ⟨h0', h2⟩ := IntOp.andi_eq_one.1 h02
  exact ⟨real_of_all_lt_inf _ _ _ x0 _ h0', real_of_all_lt_inf _ _ _ x2 _ h2, real_of_all_lt_inf _ _ _ x3 _ h3,
    real_of_all_lt_inf _ _ _ x4 _ h4, real_of_all_lt_inf _ _ _ x5 _ h5⟩

end Cert.Pre_finite_inputs.Hand

end
-- ==== Proof.DReal.lean ====
/-
  The normalisation is finite.

  Each node's normalisation is `if degree > 0 then 1 / sqrt (max degree 1) else 0`. Whatever the degree is on the
  extended reals, `max degree 1` is at least one, so its inverse square root is a real number (and the inverse square
  root of +∞ is 0); the other branch is 0. So every entry of the normalisation is a real number.
-/
import proofs.«422813_j14388140441811_3_alg».proof.Proof.RefRead
import Idealize.ShloMosaic.PureOps.Ideal.Laws

noncomputable section

open Idealize.ShloMosaic

namespace Cert.Bridge

open Cert.ReferenceIdeal Cert.ReferenceIdeal.Gen Cert.ReferenceIdeal.ReadP

/-- The float literal of one is the real number one. -/
theorem ofBits_one_f32 : Ideal.ofBits .f32 0x3F800000#32 = ((1 : ℝ) : EReal) := by
  simp [Ideal.ofBits, Ideal.ieee]
  rw [← EReal.coe_mul]
  norm_num

/-- The inverse square root of anything cut off below at one is a real number. -/
theorem rsqrt_max_one_real (y : EReal) : ∃ r : ℝ, Ideal.rsqrt (max y ((1 : ℝ) : EReal)) = (r : EReal) := by
  induction y using EReal.rec with
  | bot =>
    rw [max_eq_right bot_le]
    refine ⟨(Real.sqrt 1)⁻¹, ?_⟩
    show (if (1:ℝ) < 0 then (⊥ : EReal) else if (1:ℝ) = 0 then ⊤ else (((Real.sqrt 1)⁻¹ : ℝ) : EReal)) = _
    rw [if_neg (by norm_num), if_neg (by norm_num)]
  | top =>
    rw [max_eq_left le_top]
    exact ⟨0, rfl⟩
  | coe r =>
    have hm : max (r : EReal) ((1 : ℝ) : EReal) = ((max r 1 : ℝ) : EReal) := by
      rcases le_total r 1 with h | h
      · rw [max_eq_right h, max_eq_right (EReal.coe_le_coe_iff.2 h)]
      · rw [max_eq_left h, max_eq_left (EReal.coe_le_coe_iff.2 h)]
    rw [hm]
    refine ⟨(Real.sqrt (max r 1))⁻¹, ?_⟩
    have hp : (0 : ℝ) < max r 1 := lt_of_lt_of_le one_pos (le_max_right r 1)
    show (if max r 1 < 0 then (⊥ : EReal) else if max r 1 = 0 then ⊤ else (((Real.sqrt (max r 1))⁻¹ : ℝ) : EReal)) = _
    rw [if_neg (not_lt.2 hp.le), if_neg hp.ne']

/-- A choice between two real numbers is a real number, whatever the condition. -/
theorem select_real {c : BitVec 1} {a b : EReal} (ha : ∃ r : ℝ, a = (r : EReal)) (hb : ∃ r : ℝ, b = (r : EReal)) :
    ∃ r : ℝ, Scalar.select c a b = (r : EReal) := by
  unfold Scalar.select
  split
  · exact ha
  · exact hb

/-- Every entry of the normalisation is a real number. -/
theorem dvec_real (x1 : (⟨S2x1600000, .i32⟩ : BufTy).Contents (Elt Ideal)) (i : S100000.Idx) :
    ∃ r : ℝ, val_main_v16 (F := Ideal) x1 i = (r : EReal) := by
  rw [val_main_v16_apply]
  refine select_real ?_ ?_
  · -- where the degree is positive: the inverse square root of the degree cut off below at one
    rw [val_main_v15_apply, Ideal.hostUnary_rsqrt_def, val_main_v14_apply, Ideal.maximumf_def, val_main_v13_apply,
      val_main_cst_2_apply, Ideal.ofBits_def, ofBits_one_f32]
    generalize val_main_v10 (F := Ideal) x1 i = y
    exact rsqrt_max_one_real y
  · -- elsewhere: the literal zero
    rw [val_main_call0_v1_apply, val_main_call0_v0_apply, val_main_cst_3_apply, Ideal.ofBits_def, Ideal.ofBits_zero_f32]
    exact ⟨0, rfl⟩

end Cert.Bridge

end
-- ==== Proof.Bridge.lean ====
/-
  The join: the kernel's result buffer is the reference's result, as functions of the same arguments.

  Under the precondition every entry of the five float arguments is a real number, and so is every entry of the
  normalisation. Pick those real numbers. The kernel's final host stretch leaves, in its result buffer,
  `d r * (second aggregate) r q + b₂ q`; the first region's output array is `∑ k, (x r k * d r) * w₁ k q` and the second's
  `∑ k, (d r * max (d r * (first aggregate) r k + b₁ k) 0) * w₂ k q`. In the chosen reals both this and the
  reference's result at `(r, q)` are the second layer's value `lay2 r q`.
-/
import proofs.«422813_j14388140441811_3_alg».proof.Defs
import proofs.«422813_j14388140441811_3_alg».proof.Proof.KRun
import proofs.«422813_j14388140441811_3_alg».proof.Proof.KRegion0
import proofs.«422813_j14388140441811_3_alg».proof.Proof.KRegion1
import proofs.«422813_j14388140441811_3_alg».proof.Proof.KHost1
import proofs.«422813_j14388140441811_3_alg».proof.Proof.CoreKer
import proofs.«422813_j14388140441811_3_alg».proof.Proof.Finite
import proofs.«422813_j14388140441811_3_alg».proof.Proof.DReal
import Idealize.ShloMosaic.Lib.StableHlo.Predicate

set_option maxRecDepth 16384

noncomputable section

open Idealize.ShloMosaic Idealize.ShloMosaic.TcCoe Idealize.SL.Sem Idealize.ShloMosaic.ValueIdx
open Idealize.ShloMosaic.StableHlo.Predicate

namespace Cert.Bridge

open Cert.KernelIdeal Cert.KernelIdeal.Gen Cert.KernelIdeal.Hand

variable (m : (ℓ : Loc nD τ sig) → Buf (Elt Ideal) ℓ) (ρ : Dev nD → PrngReg)

/-- The first region's output array, entry by entry, in the launch contents. -/
theorem z1_apply (c : Dev nD) (r : Fin 100000) (q : Fin 128) :
    (z1arr (F := Ideal) m ρ c : S100000x128.Idx → EReal) (ix2 r q)
      = ∑ k : Fin 128, ((arg0 (F := Ideal) m c : S100000x128.Idx → EReal) (ix2 r k)
          * Cert.ReferenceIdeal.ReadP.val_main_v16 (F := Ideal) (arg1 m c) (ix1 r))
          * (arg2 (F := Ideal) m c : S128x128.Idx → EReal) (ix2 k q) := by
  refine (final0 (V3 (F := Ideal) m ρ) c r q).trans (Finset.sum_congr rfl fun k _ => ?_)
  have e0 : xarr0 (V3 (F := Ideal) m ρ) c = arg0 (F := Ideal) m c := W3_arg0 m ρ c
  have e1 : dcol0 (V3 (F := Ideal) m ρ) c (ix2 r 0)
      = Cert.ReferenceIdeal.ReadP.val_main_v16 (F := Ideal) (arg1 m c) (ix1 r) := W3_v19 m ρ c r
  have e2 : warr0 (V3 (F := Ideal) m ρ) c = (arg2 (F := Ideal) m c : S128x128.Idx → EReal) := W3_v17 m ρ c
  rw [e0, e1, e2]

/-- On the extended reals a widening of the float format changes nothing. -/
theorem extf_ideal {s : Shape} (X : FVec Ideal s .bf16) (h : FTy.bits .bf16 < FTy.bits .f32) :
    extf (F := Ideal) .f32 X h = X := rfl

/-- The first aggregate, as the second region finds it, over the first region's output. -/
theorem agg1_eq (c : Dev nD) :
    agg1 (V5 (F := Ideal) m ρ) c = agg1Of (arg1 (F := Ideal) m c) (z1arr (F := Ideal) m ρ c) := by
  have h := V5_v31 (F := Ideal) m ρ c
  rw [extf_ideal] at h
  exact h

/-- The second region's output array, entry by entry. -/
theorem z2_apply (c : Dev nD) (r : Fin 100000) (q : Fin 64) :
    (z2arr (F := Ideal) m ρ c : S100000x64.Idx → EReal) (ix2 r q)
      = ∑ k : Fin 128, (Cert.ReferenceIdeal.ReadP.val_main_v16 (F := Ideal) (arg1 m c) (ix1 r)
          * max (Cert.ReferenceIdeal.ReadP.val_main_v16 (F := Ideal) (arg1 m c) (ix1 r)
              * agg1Of (arg1 (F := Ideal) m c) (z1arr (F := Ideal) m ρ c) (ix2 r k)
              + (arg3 (F := Ideal) m c : S128.Idx → EReal) (ix1 k)) 0)
          * (arg4 (F := Ideal) m c : S128x64.Idx → EReal) (ix2 k q) := by
  refine (final1 (V5 (F := Ideal) m ρ) c r q).trans (Finset.sum_congr rfl fun k _ => ?_)
  have e1 : dcol1 (V5 (F := Ideal) m ρ) c (ix2 r 0)
      = Cert.ReferenceIdeal.ReadP.val_main_v16 (F := Ideal) (arg1 m c) (ix1 r) := V5_v32 m ρ c r
  have e2 : brow1 (V5 (F := Ideal) m ρ) c (ix2 0 k) = (arg3 (F := Ideal) m c : S128.Idx → EReal) (ix1 k) := V5_v33 m ρ c k
  have e3 : warr1 (V5 (F := Ideal) m ρ) c = (arg4 (F := Ideal) m c : S128x64.Idx → EReal) := V5_v18 m ρ c
  rw [e1, e2, e3, agg1_eq m ρ c]

/-- The normalisation laid along the rows of a 64-column array reads, at `(r, q)`, entry `r` of the vector. -/
theorem dcol_bcast (v : S100000.Idx → EReal) (r : Fin 100000) (q : Fin 64) :
    broadcastInDim S100000x64 ![0, 1] bcast_S100000x1_S100000x64_0_1
      (broadcastInDim S100000x1 ![0] bcast_S100000_S100000x1_0 v) (ix2 r q) = v (ix1 r) := by
  rw [broadcastInDim_apply _ bcast_S100000x1_S100000x64_0_1 _ (ix2 r q) (ix2 r 0) (fun a => match a with
      | ⟨0, _⟩ => by show r.val = if (100000 : Nat) = 1 then 0 else r.val; rw [if_neg (by decide)]
      | ⟨1, _⟩ => by show 0 = if (1 : Nat) = 1 then 0 else q.val; rw [if_pos rfl]),
    broadcastInDim_apply _ bcast_S100000_S100000x1_0 v (ix2 r 0) (ix1 r) (fun a => match a with
      | ⟨0, _⟩ => by show r.val = if (100000 : Nat) = 1 then 0 else r.val; rw [if_neg (by decide)])]

set_option maxRecDepth 100000 in
/-- The kernel's result buffer is the reference's result function of the launch contents of the six arguments. -/
theorem result_eq (hpre : Cert.Pre_KernelIdeal m) (c : Dev nD) :
    W7 (F := Ideal) m ρ c (Proc.devRef .tc main_v51)
      = Cert.ReferenceIdeal.ReadP.val_main_v66 (F := Ideal) (arg0 m c) (arg1 m c) (arg2 m c) (arg3 m c) (arg4 m c) (arg5 m c) := by
  obtain ⟨h0, h2, h3, h4, h5⟩ := Cert.Pre_finite_inputs.Hand.entries_real _ _ _ _ _ _ (hpre c)
  choose xr hx using h0
  choose w1r hw1 using h2
  choose b1r hb1 using h3
  choose w2r hw2 using h4
  choose b2r hb2 using h5
  choose dr hd using Cert.Bridge.dvec_real (arg1 (F := Ideal) m c)
  rw [W7_v51 m ρ c, extf_ideal]
  funext i
  obtain ⟨r, q, rfl⟩ : ∃ (r : Fin 100000) (q : Fin 64), i = ix2 r q := ⟨i 0, i 1, eq_ix2 i⟩
  rw [ref_out (arg0 m c) (arg1 m c) (arg2 m c) (arg3 m c) (arg4 m c) (arg5 m c)
    (fun r k => xr (ix2 r k)) (fun k q => w1r (ix2 k q)) (fun k => b1r (ix1 k)) (fun k q => w2r (ix2 k q))
    (fun q => b2r (ix1 q)) (fun r => dr (ix1 r))
    (fun r k => hx _) (fun k q => hw1 _) (fun k => hb1 _) (fun k q => hw2 _) (fun q => hb2 _) (fun r => hd _) r q]
  have hDB : ∀ (r : Fin 100000) (q : Fin 64),
      (broadcastInDim S100000x64 ![0, 1] bcast_S100000x1_S100000x64_0_1
        (broadcastInDim S100000x1 ![0] bcast_S100000_S100000x1_0 (Cert.ReferenceIdeal.ReadP.val_main_v16 (F := Ideal) (arg1 m c)))) (ix2 r q)
        = Cert.ReferenceIdeal.ReadP.val_main_v16 (F := Ideal) (arg1 m c) (ix1 r) :=
    fun r q => dcol_bcast (Cert.ReferenceIdeal.ReadP.val_main_v16 (F := Ideal) (arg1 m c)) r q
  have hk := ker_out (arg0 m c) (arg1 m c) (arg2 m c) (arg3 m c) (arg4 m c) (arg5 m c)
    (fun r k => xr (ix2 r k)) (fun k q => w1r (ix2 k q)) (fun k => b1r (ix1 k)) (fun k q => w2r (ix2 k q))
    (fun q => b2r (ix1 q)) (fun r => dr (ix1 r))
    (fun r k => hx _) (fun k q => hw1 _) (fun k => hb1 _) (fun k q => hw2 _) (fun q => hb2 _) (fun r => hd _)
    (z1arr (F := Ideal) m ρ c) (z2arr (F := Ideal) m ρ c) (z1_apply m ρ c) (z2_apply m ρ c) _ hDB r q
  exact hk

end Cert.Bridge

end
-- ==== Proof.lean ====
/-
  Two layers of a normalised graph convolution: a Pallas kernel against its reference.

  From an edge list the programs form, with one self loop per node, each node's degree and the normalisation
  `d = 1 / sqrt (max degree 1)` (0 where the degree is 0). The reference computes, layer by layer,
  `out i = ∑ (edges e into i) (h · W) (src e) * (d (src e) * d (tgt e)) + b`, cutting the first layer off below at zero.
  The kernel moves the scale out of the per-edge product: it multiplies `(d * h) · W` in a pallas_call, gathers and sums
  the product's rows with no per-edge scale, and scales the sum of row `i` by `d i`, the first layer's finish being fused
  into the second pallas_call. On the extended reals the two agree where every float input is finite: then every
  quantity is a real number, an edge summed into row `i` has target `i`, and the identity is distributivity over ℝ.

  * the three frames: the generated frame certificates of the two kernel programs, and the reference's run with its
    result dropped;
  * the idealization rewrote nothing, so its conjunct is `True`;
  * the value: the kernel's run with its result buffer named, that buffer as the reference's result function of the
    same arguments (`Cert.Bridge.result_eq`: the two regions' output arrays entry by entry, the host stretches between
    them, and the two layers as one real number on both sides), and the reference's run.
-/
import proofs.«422813_j14388140441811_3_alg».proof.Defs
import proofs.«422813_j14388140441811_3_alg».proof.Proof.Gen.Kernel
import proofs.«422813_j14388140441811_3_alg».proof.Proof.Gen.Kernel.Skeleton
import proofs.«422813_j14388140441811_3_alg».proof.Proof.Gen.Kernel.Launch
import proofs.«422813_j14388140441811_3_alg».proof.Proof.Gen.Kernel.Points
import proofs.«422813_j14388140441811_3_alg».proof.Proof.Gen.Kernel.Frame
import proofs.«422813_j14388140441811_3_alg».proof.Proof.Gen.KernelIdeal
import proofs.«422813_j14388140441811_3_alg».proof.Proof.Gen.KernelIdeal.Skeleton
import proofs.«422813_j14388140441811_3_alg».proof.Proof.Gen.KernelIdeal.Launch
import proofs.«422813_j14388140441811_3_alg».proof.Proof.Gen.KernelIdeal.Points
import proofs.«422813_j14388140441811_3_alg».proof.Proof.Gen.KernelIdeal.Frame
import proofs.«422813_j14388140441811_3_alg».proof.Proof.Gen.ReferenceIdeal
import proofs.«422813_j14388140441811_3_alg».proof.Proof.Gen.Pre_finite_inputs
import proofs.«422813_j14388140441811_3_alg».proof.Proof.RefRun
import proofs.«422813_j14388140441811_3_alg».proof.Proof.RefRead
import proofs.«422813_j14388140441811_3_alg».proof.Proof.KRun
import proofs.«422813_j14388140441811_3_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end, with equal results: the kernel's result
    buffer is the reference's result function of the kernel's arguments, and the reference's arguments are the kernel's. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v51),
    Cert.KernelIdeal.GenP.run_W7 (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v66_eq, (hagree c).1, (hagree c).2.1, (hagree c).2.2.1, (hagree c).2.2.2.1,
    (hagree c).2.2.2.2.1, (hagree c).2.2.2.2.2]
  exact (Cert.Bridge.result_eq m ρ hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
